-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x64 .f32) (main_arg3 : FVec F S64 .f32) (main_arg4 : FVec F S64x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x256 : Shape := ⟨2, ![5000, 256]⟩
abbrev S5000x64 : Shape := ⟨2, ![5000, 64]⟩
abbrev S3300000x64 : Shape := ⟨2, ![3300000, 64]⟩
abbrev S1x64 : Shape := ⟨2, ![1, 64]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x40, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x1, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x40_S5000x40_1_0_0_1_n_n_wf : DotDims.WF S5000x64 S64x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x40, .f32⟩
  | 5 => ⟨S40, .f32⟩
  | 6 => ⟨S100000x64, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S_, .f32⟩
  | 25 => ⟨S100000, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x64, .f32⟩
  | 56 => ⟨S3300000x1, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S_, .f32⟩
  | 88 => ⟨S100000, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x256, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x64_S100000x64_1_0_0_1_n_n_wf : DotDims.WF S100000x256 S256x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Spec.lean ====
/-
  The network both programs compute, as one function of the six argument arrays.

  A node has a feature row; an edge list (two rows of node numbers, sources and destinations) gets one self loop per
  node appended. The degree of a node counts the edges that end in it, every edge is weighted by the inverse square
  roots of the degrees of its two ends, and a layer sends each node the weighted sum of the rows at the sources of
  the edges that end in it. The first layer multiplies the features by a weight matrix, aggregates, adds a bias and
  clips at zero; the second multiplies, aggregates, adds a bias and takes the logarithm of the row-wise softmax.
  Every definition is written over the host operations of the reference program, so that the reference's result is
  this function by unfolding; the gather and the scatter-add stay opaque, since both programs use the same ones on
  the same index arrays.
-/
import proofs.«155438_j584115552925_1_alg».proof.Proof.Gen.ReferenceIdeal

noncomputable section

namespace Cert.Spec

open Cert.ReferenceIdeal Cert.ReferenceIdeal.Gen Idealize.ShloMosaic Idealize.ShloMosaic.TcCoe Idealize.SL.Sem Idealize.ShloMosaic.StableHlo

variable {F : FTy → Type} [FloatOps F]

/-- The sources of the edges: row 0 of the edge list, then one self loop per node. -/
def src (e : (⟨S2x3200000, .i32⟩ : BufTy).Contents (Elt F)) : (⟨S3300000, .i32⟩ : BufTy).Contents (Elt F) :=
  (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)

/-- The destinations of the edges: row 1 of the edge list, then one self loop per node. -/
def dst (e : (⟨S2x3200000, .i32⟩ : BufTy).Contents (Elt F)) : (⟨S3300000, .i32⟩ : BufTy).Contents (Elt F) :=
  (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)

/-- A node number counted from the end (negative) is moved into range by adding the node count. -/
def wrapIdx (s : (⟨S3300000, .i32⟩ : BufTy).Contents (Elt F)) : (⟨S3300000, .i32⟩ : BufTy).Contents (Elt F) :=
  (select (cmpi .slt s (broadcastInDim S3300000 ![] bcast_S_S3300000 (constantI S_ 32 0#32))) (addi s (broadcastInDim S3300000 ![] bcast_S_S3300000 (constantI S_ 32 100000#32))) s)

/-- The degree of every node: the number of edges whose destination it is. -/
def degree (d : (⟨S3300000, .i32⟩ : BufTy).Contents (Elt F)) : (⟨S100000, .f32⟩ : BufTy).Contents (Elt F) :=
  (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32)))

/-- The inverse square root of the degree, of 1 where the degree is not positive. -/
def invSqrtDeg (d : (⟨S3300000, .i32⟩ : BufTy).Contents (Elt F)) : (⟨S100000, .f32⟩ : BufTy).Contents (Elt F) :=
  (Host.rsqrt (select (cmpf (F := F) .ogt (degree d) (broadcastInDim S100000 ![] bcast_S_S100000 (constant S_ .f32 0x00000000#32))) (degree d) (broadcastInDim S100000 ![] bcast_S_S100000 (id (constant S_ .f32 0x3F800000#32)))))

/-- The weight of every edge: the product of the inverse square roots of the degrees of its two ends. -/
def edgeNorm (s d : (⟨S3300000, .i32⟩ : BufTy).Contents (Elt F)) : (⟨S3300000, .f32⟩ : BufTy).Contents (Elt F) :=
  (mulf (Host.gather gather_S100000_S3300000x1_S3300000_n_0_n_n_0_1_1 (invSqrtDeg d) (broadcastInDim S3300000x1 ![0] bcast_S3300000_S3300000x1_0 (wrapIdx s))) (Host.gather gather_S100000_S3300000x1_S3300000_n_0_n_n_0_1_1 (invSqrtDeg d) (broadcastInDim S3300000x1 ![0] bcast_S3300000_S3300000x1_0 (wrapIdx d))))

/-- The edge weights from the edge list. -/
def norm (e : (⟨S2x3200000, .i32⟩ : BufTy).Contents (Elt F)) : (⟨S3300000, .f32⟩ : BufTy).Contents (Elt F) := edgeNorm (src e) (dst e)

/-- One aggregation over rows of 64: every node gets the sum, over the edges that end in it, of the row at the edge's
    source times the edge's weight. -/
def aggr64 (xw : (⟨S100000x64, .f32⟩ : BufTy).Contents (Elt F)) (s d : (⟨S3300000, .i32⟩ : BufTy).Contents (Elt F)) (n : (⟨S3300000, .f32⟩ : BufTy).Contents (Elt F)) : (⟨S100000x64, .f32⟩ : BufTy).Contents (Elt F) :=
  (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 xw (broadcastInDim S3300000x1 ![0] bcast_S3300000_S3300000x1_0 (wrapIdx s))) (broadcastInDim S3300000x64 ![0, 1] bcast_S3300000x1_S3300000x64_0_1 (broadcastInDim S3300000x1 ![0] bcast_S3300000_S3300000x1_0 n))))

/-- The same over rows of 40. -/
def aggr40 (xw : (⟨S100000x40, .f32⟩ : BufTy).Contents (Elt F)) (s d : (⟨S3300000, .i32⟩ : BufTy).Contents (Elt F)) (n : (⟨S3300000, .f32⟩ : BufTy).Contents (Elt F)) : (⟨S100000x40, .f32⟩ : BufTy).Contents (Elt F) :=
  (Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 d) (mulf (Host.gather gather_S100000x40_S3300000x1_S3300000x40_1_0_n_n_0_1_140 xw (broadcastInDim S3300000x1 ![0] bcast_S3300000_S3300000x1_0 (wrapIdx s))) (broadcastInDim S3300000x40 ![0, 1] bcast_S3300000x1_S3300000x40_0_1 (broadcastInDim S3300000x1 ![0] bcast_S3300000_S3300000x1_0 n))))

def agg64 (xw : (⟨S100000x64, .f32⟩ : BufTy).Contents (Elt F)) (e : (⟨S2x3200000, .i32⟩ : BufTy).Contents (Elt F)) : (⟨S100000x64, .f32⟩ : BufTy).Contents (Elt F) := aggr64 xw (src e) (dst e) (norm e)
def agg40 (xw : (⟨S100000x40, .f32⟩ : BufTy).Contents (Elt F)) (e : (⟨S2x3200000, .i32⟩ : BufTy).Contents (Elt F)) : (⟨S100000x40, .f32⟩ : BufTy).Contents (Elt F) := aggr40 xw (src e) (dst e) (norm e)

/-- The first layer's product of the features with its weights. -/
def dense1 (x : (⟨S100000x256, .f32⟩ : BufTy).Contents (Elt F)) (w1 : (⟨S256x64, .f32⟩ : BufTy).Contents (Elt F)) : (⟨S100000x64, .f32⟩ : BufTy).Contents (Elt F) :=
  (Host.dotGeneral dot_S100000x256_S256x64_S100000x64_1_0_0_1_n_n none x w1)

/-- The second layer's product. -/
def dense2 (h : (⟨S100000x64, .f32⟩ : BufTy).Contents (Elt F)) (w2 : (⟨S64x40, .f32⟩ : BufTy).Contents (Elt F)) : (⟨S100000x40, .f32⟩ : BufTy).Contents (Elt F) :=
  (Host.dotGeneral dot_S100000x64_S64x40_S100000x40_1_0_0_1_n_n none h w2)

/-- A bias row added to every row, then clipped at zero. -/
def biasRelu1 (a : (⟨S100000x64, .f32⟩ : BufTy).Contents (Elt F)) (b : (⟨S1x64, .f32⟩ : BufTy).Contents (Elt F)) : (⟨S100000x64, .f32⟩ : BufTy).Contents (Elt F) :=
  (maximumf (addf a (broadcastInDim S100000x64 ![0, 1] bcast_S1x64_S100000x64_0_1 b)) (broadcastInDim S100000x64 ![] bcast_S_S100000x64 (constant S_ .f32 0x00000000#32)))

/-- A bias vector as one row. -/
def biasRow64 (b1 : (⟨S64, .f32⟩ : BufTy).Contents (Elt F)) : (⟨S1x64, .f32⟩ : BufTy).Contents (Elt F) := broadcastInDim S1x64 ![1] bcast_S64_S1x64_1 b1
def biasRow40 (b2 : (⟨S40, .f32⟩ : BufTy).Contents (Elt F)) : (⟨S1x40, .f32⟩ : BufTy).Contents (Elt F) := broadcastInDim S1x40 ![1] bcast_S40_S1x40_1 b2

/-- The hidden layer. -/
def hidden (x : (⟨S100000x256, .f32⟩ : BufTy).Contents (Elt F)) (e : (⟨S2x3200000, .i32⟩ : BufTy).Contents (Elt F)) (w1 : (⟨S256x64, .f32⟩ : BufTy).Contents (Elt F)) (b1 : (⟨S64, .f32⟩ : BufTy).Contents (Elt F)) : (⟨S100000x64, .f32⟩ : BufTy).Contents (Elt F) :=
  biasRelu1 (agg64 (dense1 x w1) e) (biasRow64 b1)

/-- A bias row added to every row. -/
def addBias1 (a : (⟨S100000x40, .f32⟩ : BufTy).Contents (Elt F)) (b : (⟨S1x40, .f32⟩ : BufTy).Contents (Elt F)) : (⟨S100000x40, .f32⟩ : BufTy).Contents (Elt F) :=
  (addf a (broadcastInDim S100000x40 ![0, 1] bcast_S1x40_S100000x40_0_1 b))

/-- The second layer before the softmax. -/
def logits (x : (⟨S100000x256, .f32⟩ : BufTy).Contents (Elt F)) (e : (⟨S2x3200000, .i32⟩ : BufTy).Contents (Elt F)) (w1 : (⟨S256x64, .f32⟩ : BufTy).Contents (Elt F)) (b1 : (⟨S64, .f32⟩ : BufTy).Contents (Elt F)) (w2 : (⟨S64x40, .f32⟩ : BufTy).Contents (Elt F)) (b2 : (⟨S40, .f32⟩ : BufTy).Contents (Elt F)) : (⟨S100000x40, .f32⟩ : BufTy).Contents (Elt F) :=
  addBias1 (agg40 (dense2 (hidden x e w1 b1) w2) e) (biasRow40 b2)

/-- The largest entry of every row (the reference takes it once more against minus infinity). -/
def rowMax (z : (⟨S100000x40, .f32⟩ : BufTy).Contents (Elt F)) : (⟨S100000, .f32⟩ : BufTy).Contents (Elt F) :=
  (maximumf (broadcastInDim S100000 ![] bcast_S_S100000 (constant S_ .f32 0xFF800000#32)) (Host.reduce FloatOps.maximumf z (constant S_ .f32 0xFF800000#32) reducesTo_S100000x40_S100000_d1 h_S_))

/-- The logarithm of the softmax of every row: the row less its largest entry, less the logarithm of the sum of the
    exponentials of that. -/
def logSoftmaxRows (z : (⟨S100000x40, .f32⟩ : BufTy).Contents (Elt F)) : (⟨S100000x40, .f32⟩ : BufTy).Contents (Elt F) :=
  subf (subf z (broadcastInDim S100000x40 ![0, 1] bcast_S100000x1_S100000x40_0_1 (broadcastInDim S100000x1 ![0] bcast_S100000_S100000x1_0 (rowMax z)))) (broadcastInDim S100000x40 ![0, 1] bcast_S100000x1_S100000x40_0_1 (Host.log (broadcastInDim S100000x1 ![0] bcast_S100000_S100000x1_0 (Host.reduceAdd (Host.exp (subf z (broadcastInDim S100000x40 ![0, 1] bcast_S100000x1_S100000x40_0_1 (broadcastInDim S100000x1 ![0] bcast_S100000_S100000x1_0 (rowMax z))))) (constant S_ .f32 0x00000000#32) reducesTo_S100000x40_S100000_d1 h_S_))))

/-- Bias, then the row-wise log-softmax: what the last kernel computes of its two operands. -/
def biasLogSoftmax1 (a : (⟨S100000x40, .f32⟩ : BufTy).Contents (Elt F)) (b : (⟨S1x40, .f32⟩ : BufTy).Contents (Elt F)) : (⟨S100000x40, .f32⟩ : BufTy).Contents (Elt F) := logSoftmaxRows (addBias1 a b)

/-- The whole network. -/
def out (x : (⟨S100000x256, .f32⟩ : BufTy).Contents (Elt F)) (e : (⟨S2x3200000, .i32⟩ : BufTy).Contents (Elt F)) (w1 : (⟨S256x64, .f32⟩ : BufTy).Contents (Elt F)) (b1 : (⟨S64, .f32⟩ : BufTy).Contents (Elt F)) (w2 : (⟨S64x40, .f32⟩ : BufTy).Contents (Elt F)) (b2 : (⟨S40, .f32⟩ : BufTy).Contents (Elt F)) : (⟨S100000x40, .f32⟩ : BufTy).Contents (Elt F) :=
  logSoftmaxRows (logits x e w1 b1 w2 b2)

end Cert.Spec

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Region0.lean ====
/-
  Region 0 of the kernel program: the first layer's product of the features with its weights.

  The region is one pipelined call over a grid of 20 points. Point t stages rows 5000·t … 5000·t+4999 of the feature
  array, the whole weight matrix, and writes back rows 5000·t … 5000·t+4999 of the result. Its body narrows both
  staged blocks (the identity on ideal values), multiplies them into a zero accumulator and stores the product.
  Entry (i, q) of the result array is therefore the sum over k of feature (i, k) times weight (k, q), which is
  entry (i, q) of the host's general dot of the two arrays: the result array ends as Spec.dense1 of the two operands.
-/
import proofs.«155438_j584115552925_1_alg».proof.Proof.Gen.KernelIdeal.Frame
import proofs.«155438_j584115552925_1_alg».proof.Proof.Spec
import proofs.«155438_j584115552925_1_alg».proof.Proof.LibDense
import Idealize.ShloMosaic.Lib.ValueIdx
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product and the host's product, read at an entry -/

/-- The body's payload at entry (p, q) of its block: the sum over k of left (p, k) times right (k, q). -/
theorem pay_apply (x0 : Vec Ideal S5000x256 .f32) (x1 : Vec Ideal S256x64 .f32) (p : Fin 5000) (q : Fin 64) :
    k0_pay1 x0 x1 (ix2 p q) = ∑ k : Fin 256, x0 (ix2 p k) * x1 (ix2 k q) := by
  unfold k0_pay1
  simp only [matmul]
  exact Cert.LibDense.matmul_zero_apply dot_S5000x256_S256x64_S5000x64_1_0_0_1_n_n none rfl rfl rfl rfl rfl rfl _ _ p q

/-- The first layer's product of two arrays at entry (i, q): the sum over k of x (i, k) times w (k, q). -/
theorem dense1_apply (x : (⟨S100000x256, .f32⟩ : BufTy).Contents (Elt Ideal)) (w : (⟨S256x64, .f32⟩ : BufTy).Contents (Elt Ideal))
    (i : Fin 100000) (q : Fin 64) :
    Cert.Spec.dense1 x w (ix2 i q) = ∑ k : Fin 256, x (ix2 i k) * w (ix2 k q) := by
  unfold Cert.Spec.dense1
  exact Cert.LibDense.dotGeneral_apply Cert.ReferenceIdeal.dot_S100000x256_S256x64_S100000x64_1_0_0_1_n_n none .single rfl rfl rfl rfl rfl rfl _ _ i q

/-! ## The windows' blocks in their arrays -/

theorem zero_offsets : (![0, 0] : Fin 2 → Nat) = fun _ => 0 := funext fun a => by fin_cases a <;> rfl

/-- The printed index maps over the grid: at point t the features' window and the result's window are at block row t,
    block column 0; the weights' window stays at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry (p, k) of the features' block at point t is entry (5000·t + p, k) of the feature array. -/
theorem features_block (c : Dev nD) (t : Fin cfg0.N) (p : Fin 5000) (k : Fin 256) (i : Fin 100000)
    (hi : i.val = t.val * 5000 + p.val) :
    (iblk0 V c 0 t : Vec Ideal S5000x256 .f32) (ix2 p k) = (V c main_arg0 : S100000x256.Idx → Elt Ideal .f32) (ix2 i k) := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * p.val = i.val; rw [e0, hi]; omega
  | ⟨1, _⟩ => show win0_0.index t (1 : Fin 2) * 256 + 1 * k.val = k.val; rw [e1]; omega

/-- The weights' block at any point is the whole weight matrix. -/
theorem weights_block (c : Dev nD) (t : Fin cfg0.N) (k : Fin 256) (q : Fin 64) :
    (iblk0 V c 1 t : Vec Ideal S256x64 .f32) (ix2 k q) = (V c main_arg2 : S256x64.Idx → Elt Ideal .f32) (ix2 k q) := by
  obtain ⟨-, -, e0, e1, -⟩ := index_facts t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e0]; omega
  | ⟨1, _⟩ => show win0_1.index t (1 : Fin 2) * 64 + 1 * q.val = q.val; rw [e1]; omega

/-! ## What a point writes back, and the array after the last point -/

/-- Point t writes back block t of the product of the two operand arrays. -/
theorem flushed_eq (c : Dev nD) (t : Fin cfg0.N) :
    (dat0 (F := Ideal) V c).flushed 2 t
      = ((cfg0.win 2).blk t).view.read (Elt Ideal) (Cert.Spec.dense1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨-, -, -, -, e0, e1⟩ := index_facts t
  have ht : t.val < 20 := t.isLt
  refine funext fun (j : S5000x64.Idx) => ?_
  obtain ⟨p, q, rfl⟩ : ∃ (p : Fin 5000) (q : Fin 64), j = ix2 p q := ⟨j 0, j 1, eq_ix2 j⟩
  have hi : t.val * 5000 + p.val < 100000 := by have hp : p.val < 5000 := p.isLt; omega
  show k0_pay1 (iblk0 V c 0 t) (iblk0 V c 1 t) (ix2 p q)
    = Cert.Spec.dense1 (V c main_arg0) (V c main_arg2) (((cfg0.win 2).blk t).view.emb (ix2 p q))
  have hemb : ((cfg0.win 2).blk t).view.emb (ix2 p q) = ix2 (⟨t.val * 5000 + p.val, hi⟩ : Fin 100000) q := by
    funext a
    apply Fin.ext
    match a with
    | ⟨0, _⟩ => show win0_2.index t (0 : Fin 2) * 5000 + 1 * p.val = t.val * 5000 + p.val; rw [e0]; omega
    | ⟨1, _⟩ => show win0_2.index t (1 : Fin 2) * 64 + 1 * q.val = q.val; rw [e1]; omega
  rw [hemb, pay_apply, dense1_apply]
  refine Finset.sum_congr rfl fun k _ => ?_
  rw [features_block V c t p k ⟨t.val * 5000 + p.val, hi⟩ rfl, weights_block V c t k q]

/-- An index of the result array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every row r of the result array is in the block of point r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, e0, e1⟩ := index_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 64 ≤ (i 1).val ∧ (i 1).val < win0_2.index t (1 : Fin 2) * 64 + 64; rw [e1]; omega

/-- After the last point the result array is the first layer's product of the feature array with the weight matrix. -/
theorem arr_eq (V : (c : Dev nD) → (b : Ref sig .tc) → Buf (Elt Ideal) ((c : Thread nD τ).loc b)) (c : Dev nD) :
    (Cert.KernelIdeal.Gen.dat0 (F := Ideal) V c).arrAt 2 cfg0.N = Cert.Spec.dense1 (V c main_arg0) (V c main_arg2) :=
  (dat0 (F := Ideal) V c).arrAt_eq_of_cover 2 (Cert.Spec.dense1 (V c main_arg0) (V c main_arg2))
    (fun t _ => flushed_eq V c t) covered

end Cert.KernelIdeal.Region0

end
-- ==== Proof.Region1.lean ====
/-
  Region 1 of the kernel's main function: the first layer's bias and clip.

  The region is a grid of 20 points. Point t reads rows 5000·t … 5000·t + 4999 of the aggregated features and the one
  bias row, adds the bias row to each of those rows, takes the maximum with zero, and writes the result back as rows
  5000·t … 5000·t + 4999 of the result array. The 20 row blocks fill the array, so after the region its entry (i, q)
  is max (a (i, q) + b (0, q)) 0, a the features and b the bias row as the region finds them: the network's
  bias-and-clip of those two arrays.
-/
import proofs.«155438_j584115552925_1_alg».proof.Proof.Gen.KernelIdeal.Frame
import proofs.«155438_j584115552925_1_alg».proof.Proof.Spec
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value

-- membership in rectangles of extents in the thousands recurses once per coordinate
set_option maxRecDepth 16384

noncomputable section

namespace Cert.KernelIdeal.Region1

open Cert.KernelIdeal Idealize.ShloMosaic Idealize.ShloMosaic.TcCoe Idealize.ShloMosaic.ValueIdx Idealize.SL.Sem
open Idealize.ShloMosaic.Pipeline (Dat)

/-- The body's value at row p, column q of its block: the block's entry plus the bias row's entry in that column,
    clipped at zero. -/
theorem pay_apply (x0 : Vec Ideal S5000x64 .f32) (x1 : Vec Ideal S1x64 .f32) (p : Fin 5000) (q : Fin 64) :
    Gen.k1_pay1 x0 x1 (ix2 p q) = max (x0 (ix2 p q) + x1 (ix2 (0 : Fin 1) q)) (Ideal.ofBits .f32 0x00000000#32) := by
  unfold Gen.k1_pay1
  simp only [shapeCast_self]
  rw [maximumf_apply, addf_apply, broadcastTo_1b_ab_apply]
  rfl

/-- The same function of the whole arrays, read at row r, column q. -/
theorem biasRelu1_apply (a : S100000x64.Idx → Elt Ideal .f32) (b : S1x64.Idx → Elt Ideal .f32) (r : Fin 100000) (q : Fin 64) :
    Cert.Spec.biasRelu1 a b (ix2 r q) = max (a (ix2 r q) + b (ix2 (0 : Fin 1) q)) (Ideal.ofBits .f32 0x00000000#32) := by
  unfold Cert.Spec.biasRelu1
  rw [maximumf_apply, addf_apply, broadcastInDim_oneRow_apply, broadcastInDim_scalar_apply, constant_apply]

/-- The body's value at any index of its block. -/
theorem pay_at (x0 : Vec Ideal S5000x64 .f32) (x1 : Vec Ideal S1x64 .f32) (x : S5000x64.Idx) :
    Gen.k1_pay1 x0 x1 x = max (x0 x + x1 (ix2 (0 : Fin 1) (x 1))) (Ideal.ofBits .f32 0x00000000#32) := by
  obtain ⟨p, q, rfl⟩ : ∃ p q, x = ix2 p q := ⟨x 0, x 1, eq_ix2 x⟩
  exact pay_apply x0 x1 p q

/-- The function of the whole arrays at any index. -/
theorem biasRelu1_at (a : S100000x64.Idx → Elt Ideal .f32) (b : S1x64.Idx → Elt Ideal .f32) (y : S100000x64.Idx) :
    Cert.Spec.biasRelu1 a b y = max (a y + b (ix2 (0 : Fin 1) (y 1))) (Ideal.ofBits .f32 0x00000000#32) := by
  obtain ⟨r, q, rfl⟩ : ∃ r q, y = ix2 r q := ⟨y 0, y 1, eq_ix2 y⟩
  exact biasRelu1_apply a b r q

/-- Both sides read their arrays at one row and one column: equal indices give equal entries. -/
theorem clip_congr (a : S100000x64.Idx → Elt Ideal .f32) (b : S1x64.Idx → Elt Ideal .f32) {k k' : S100000x64.Idx} {l l' : S1x64.Idx}
    (hk : k = k') (hl : l = l') :
    max (a k + b l) (Ideal.ofBits .f32 0x00000000#32) = max (a k' + b l') (Ideal.ofBits .f32 0x00000000#32) := by
  rw [hk, hl]

/-- A whole-buffer access starts at the origin. -/
theorem hz : (![0, 0] : Fin 2 → Nat) = fun _ => 0 := funext fun a => by fin_cases a <;> rfl

/-- The index maps, decided over the grid: at point t the feature block and the result block are block row t of
    their arrays (block column 0), and the bias row's block is the one block its array has. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has 20 points. -/
theorem points : cfg1.N = 20 := by decide

/-- What point t writes back is block row t of the bias-and-clip of the two arrays the region finds: a result row
    5000·t + p reads the feature row 5000·t + p and the one bias row, on both sides. -/
theorem flushed_eq (V : (c : Dev nD) → (b : Ref sig .tc) → Buf (Elt Ideal) ((c : Thread nD τ).loc b)) (c : Dev nD) (t : Fin cfg1.N) :
    (Gen.dat1 (F := Ideal) V c).flushed 2 t
      = ((cfg1.win 2).blk t).view.read (Elt Ideal) (Cert.Spec.biasRelu1 (V c main_v43) (V c main_v44)) := by
  show (cfg1.win 2).cut (grid1.coords t) ((Gen.dat1 V c).after 2 t) = _
  rw [Gen.after1_2]
  unfold Gen.out1_2
  rw [View.canon_unit_zero hz]
  simp only [View.ld_unit_zero (S := S5000x64) hz, View.ld_unit_zero (S := S1x64) hz]
  obtain ⟨e0, e1, e2, e3, e4, e5⟩ := idx_facts t
  funext j
  have hj0 : (j 0).val < 5000 := (j 0).isLt
  have hj1 : (j 1).val < 64 := (j 1).isLt
  rw [View.read_apply]
  refine (pay_at _ _ _).trans ?_
  refine Eq.trans ?_ (biasRelu1_at _ _ _).symm
  have h0 : ((cfg1.win 0).blk t).view.emb ((win1 2).xinj (grid1.coords t) j) = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) ((win1 2).xinj (grid1.coords t) j 1)) = ix2 (0 : Fin 1) (((cfg1.win 2).blk t).view.emb j 1) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  exact clip_congr (V c main_v43) (V c main_v44) h0 h1

/-- An index of the result array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- The 20 row blocks fill the result array: row r is in the block of point r / 5000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [points]; omega⟩, rfl⟩
  obtain ⟨-, -, -, -, e4, e5⟩ := idx_facts t
  refine ⟨t, Gen.flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the region: the bias row added to every row of the features, clipped at zero. -/
theorem arr_eq (V : (c : Dev nD) → (b : Ref sig .tc) → Buf (Elt Ideal) ((c : Thread nD τ).loc b)) (c : Dev nD) :
    (Cert.KernelIdeal.Gen.dat1 (F := Ideal) V c).arrAt 2 cfg1.N = Cert.Spec.biasRelu1 (V c main_v43) (V c main_v44) :=
  (Gen.dat1 V c).arrAt_eq_of_cover 2 _ (fun t _ => flushed_eq V c t) covered

end Cert.KernelIdeal.Region1

end
-- ==== Proof.Region2.lean ====
/-
  Region 2 of the kernel: the second matrix product, from its blocks to its array.

  The region's grid has 20 points. Point t stages rows 5000·t … 5000·t + 4999 of the left operand (a [100000 × 64]
  array), the whole right operand ([64 × 40]), and writes back rows 5000·t … 5000·t + 4999 of the result
  ([100000 × 40]). The body casts its left block to its own shape, casts both blocks to a narrower float format (both
  casts are the identity over the extended reals), multiplies them into a zero accumulator and stores the product. So
  entry (5000·t + p, q) of the result is the sum over k of left (5000·t + p, k) · right (k, q): the host's general dot of
  the two whole arrays at that entry, term by term in the same order. The 20 row blocks tile the result array, so
  after the region the array IS the host's product.
-/
import proofs.«155438_j584115552925_1_alg».proof.Proof.Gen.KernelIdeal.Frame
import proofs.«155438_j584115552925_1_alg».proof.Proof.Spec
import proofs.«155438_j584115552925_1_alg».proof.Proof.LibDense
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The two products, entry by entry -/

/-- The body's payload at entry (p, q): the shape cast to the same shape and the two format casts change nothing, and
    the product into the zero accumulator is the sum over k of left (p, k) times right (k, q). -/
theorem pay_apply (x0 : Vec Ideal S5000x64 .f32) (x1 : Vec Ideal S64x40 .f32) (p : Fin 5000) (q : Fin 40) :
    k2_pay1 x0 x1 (ix2 p q) = ∑ k : Fin 64, x0 (ix2 p k) * x1 (ix2 k q) := by
  unfold k2_pay1
  rw [shapeCast_self]
  exact Cert.LibDense.matmul_zero_apply dot_S5000x64_S64x40_S5000x40_1_0_0_1_n_n none rfl rfl rfl rfl rfl rfl _ _ p q

/-- The host's product at entry (i, q): the same sum, over the whole arrays. -/
theorem dense2_apply (h : (⟨Cert.ReferenceIdeal.S100000x64, .f32⟩ : BufTy).Contents (Elt Ideal))
    (w : (⟨Cert.ReferenceIdeal.S64x40, .f32⟩ : BufTy).Contents (Elt Ideal)) (i : Fin 100000) (q : Fin 40) :
    Cert.Spec.dense2 h w (ix2 i q) = ∑ k : Fin 64, h (ix2 i k) * w (ix2 k q) := by
  unfold Cert.Spec.dense2
  exact Cert.LibDense.dotGeneral_apply Cert.ReferenceIdeal.dot_S100000x64_S64x40_S100000x40_1_0_0_1_n_n none _ rfl rfl rfl rfl rfl rfl h w i q

/-! ## Where each block lies in its array -/

theorem zero_off : (![0, 0] : Fin 2 → Nat) = fun _ => 0 := funext fun a => by fin_cases a <;> rfl

/-- The grid has 20 points; at point t the left operand's and the result's block index is (t, 0) and the right
    operand's is (0, 0): the printed index maps, decided over the grid. -/
theorem idx_facts : ∀ t : Fin cfg2.N, t.val < 20
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem idx_onto : ∀ b : Fin 20, ∃ t : Fin cfg2.N, t.val = b.val :=
  (by decide +kernel : ∀ b : Fin 20, ∃ t : Fin grid2.N, t.val = b.val)

/-- The left operand's block at point t is rows 5000 t … 5000 t + 4999 of its array. -/
theorem lhs_block_apply (c : Dev nD) (t : Fin cfg2.N) (p : Fin 5000) (k : Fin 64) (i : Fin 100000)
    (hi : i.val = 5000 * t.val + p.val) :
    (iblk2 V c 0 t : Vec Ideal S5000x64 .f32) (ix2 p k) = (V c main_v45 : S100000x64.Idx → Elt Ideal .f32) (ix2 i k) := by
  obtain ⟨-, e00, e01, -⟩ := idx_facts t
  show V c main_v45 (((cfg2.win 0).blk t).view.emb (ix2 p k)) = V c main_v45 (ix2 i k)
  congr 1
  funext a; apply Fin.ext
  match a with
  | ⟨0, _⟩ => show win2_0.index t (0 : Fin 2) * 5000 + 1 * p.val = i.val; rw [e00, hi]; omega
  | ⟨1, _⟩ => show win2_0.index t (1 : Fin 2) * 64 + 1 * k.val = k.val; rw [e01]; omega

/-- The right operand's block at every point is its whole array. -/
theorem rhs_block_apply (c : Dev nD) (t : Fin cfg2.N) (k : Fin 64) (q : Fin 40) :
    (iblk2 V c 1 t : Vec Ideal S64x40 .f32) (ix2 k q) = (V c main_arg4 : S64x40.Idx → Elt Ideal .f32) (ix2 k q) := by
  obtain ⟨-, -, -, e10, e11, -⟩ := idx_facts t
  show V c main_arg4 (((cfg2.win 1).blk t).view.emb (ix2 k q)) = V c main_arg4 (ix2 k q)
  congr 1
  funext a; apply Fin.ext
  match a with
  | ⟨0, _⟩ => show win2_1.index t (0 : Fin 2) * 64 + 1 * k.val = k.val; rw [e10]; omega
  | ⟨1, _⟩ => show win2_1.index t (1 : Fin 2) * 40 + 1 * q.val = q.val; rw [e11]; omega

/-- So when row p of the left block is row i of `h` and the right block is `w`, the payload at (p, q) is the host's
    product of `h` and `w` at (i, q). -/
theorem pay_eq_dense2 (x0 : Vec Ideal S5000x64 .f32) (x1 : Vec Ideal S64x40 .f32)
    (h : (⟨Cert.ReferenceIdeal.S100000x64, .f32⟩ : BufTy).Contents (Elt Ideal))
    (w : (⟨Cert.ReferenceIdeal.S64x40, .f32⟩ : BufTy).Contents (Elt Ideal)) (p : Fin 5000) (q : Fin 40) (i : Fin 100000)
    (h0 : ∀ k : Fin 64, x0 (ix2 p k) = h (ix2 i k)) (h1 : ∀ k : Fin 64, x1 (ix2 k q) = w (ix2 k q)) :
    k2_pay1 x0 x1 (ix2 p q) = Cert.Spec.dense2 h w (ix2 i q) := by
  rw [pay_apply, dense2_apply]
  exact Finset.sum_congr rfl fun k _ => by rw [h0 k, h1 k]

/-- What point t writes back is block t of the host's product of the operand arrays as the region finds them. -/
theorem flushed_eq (c : Dev nD) (t : Fin cfg2.N) :
    (dat2 V c).flushed 2 t = ((cfg2.win 2).blk t).view.read (Elt Ideal) (Cert.Spec.dense2 (V c main_v45) (V c main_arg4)) := by
  show (cfg2.win 2).cut (grid2.coords t) ((dat2 V c).after 2 t) = _
  rw [after2_2]
  unfold out2_2
  rw [View.canon_unit_zero zero_off]
  simp only [View.ld_unit_zero (S := S5000x64) zero_off, View.ld_unit_zero (S := S64x40) zero_off]
  obtain ⟨ht, -, -, -, -, e20, e21⟩ := idx_facts t
  funext j
  have hp : (j 0).val < 5000 := (j 0).isLt
  have hq : (j 1).val < 40 := (j 1).isLt
  have hi : 5000 * t.val + (j 0).val < 100000 := by omega
  have hemb : ((cfg2.win 2).blk t).view.emb j = (ix2 (n0 := 100000) (n1 := 40) ⟨5000 * t.val + (j 0).val, hi⟩ ⟨(j 1).val, hq⟩ : S100000x40.Idx) := by
    funext a; apply Fin.ext
    match a with
    | ⟨0, _⟩ => show win2_2.index t (0 : Fin 2) * 5000 + 1 * (j 0).val = 5000 * t.val + (j 0).val; rw [e20]; omega
    | ⟨1, _⟩ => show win2_2.index t (1 : Fin 2) * 40 + 1 * (j 1).val = (j 1).val; rw [e21]; omega
  have hj : (cfg2.win 2).xinj (grid2.coords t) j = (ix2 (n0 := 5000) (n1 := 40) ⟨(j 0).val, hp⟩ ⟨(j 1).val, hq⟩ : S5000x40.Idx) := by
    funext a
    match a with
    | ⟨0, _⟩ => rfl
    | ⟨1, _⟩ => rfl
  show k2_pay1 (iblk2 V c 0 t) (iblk2 V c 1 t) ((cfg2.win 2).xinj (grid2.coords t) j)
    = Cert.Spec.dense2 (V c main_v45) (V c main_arg4) (((cfg2.win 2).blk t).view.emb j)
  rw [hj, hemb]
  exact pay_eq_dense2 (iblk2 V c 0 t) (iblk2 V c 1 t) (V c main_v45) (V c main_arg4) ⟨(j 0).val, hp⟩ ⟨(j 1).val, hq⟩
    ⟨5000 * t.val + (j 0).val, hi⟩ (fun k => lhs_block_apply V c t _ k _ rfl) (fun k => rhs_block_apply V c t k _)

/-! ## From the blocks to the array -/

/-- An entry of the result array is in point t's block iff each coordinate is in the block's range on its axis. -/
theorem mem_blk (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v46).slice (win2_2.rect t)).set ↔ _
  rw [View.set_slice_whole, Rect.mem_set_unit]
  exact Iff.rfl

/-- Every entry of the result array is written back: row r lies in the block of point r / 5000. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := idx_onto ⟨(i 0).val / 5000, by omega⟩
  have ht' : t.val = (i 0).val / 5000 := ht
  obtain ⟨-, -, -, -, -, e20, e21⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e20]; omega
  | ⟨1, _⟩ =>
    show win2_2.index t (1 : Fin 2) * 40 ≤ (i 1).val ∧ (i 1).val < win2_2.index t (1 : Fin 2) * 40 + 40
    rw [e21]; omega

/-- The result array of the region, after its 20 write-backs, is the host's product of the two operand arrays. -/
theorem arr_eq (c : Dev nD) :
    (Cert.KernelIdeal.Gen.dat2 (F := Ideal) V c).arrAt 2 cfg2.N = Cert.Spec.dense2 (V c main_v45) (V c main_arg4) :=
  (dat2 V c).arrAt_eq_of_cover 2 (Cert.Spec.dense2 (V c main_v45) (V c main_arg4)) (fun t _ => flushed_eq V c t) cover

end Cert.KernelIdeal.Region2

end
-- ==== Proof.Region3.lean ====
/-
  Region 3 of the kernel: the second layer's bias and the logarithm of the row-wise softmax, from its blocks to its array.

  The region's grid has 20 points. Point t stages rows 5000·t … 5000·t + 4999 of the aggregated logits and the one bias
  row, and writes back the same rows of the result. The body adds the bias row to every row, giving z; takes every
  row's maximum M (a reduction from minus infinity), subtracts it, exponentiates, sums every row from zero, takes the
  logarithm, and stores (z − M) − log Σ exp (z − M). Row i of the result depends on row i of the operand and on the
  bias row only, the vector unit's row maximum and row sum are the host's (the same folds over the 40 entries of the
  row; the host's one further maximum against minus infinity changes nothing), and exp and log are the host's over
  the extended reals, so every entry is the entry of the host's chain over the whole arrays. The 20 row blocks tile
  the result array.
-/
import proofs.«155438_j584115552925_1_alg».proof.Proof.Gen.KernelIdeal.Frame
import proofs.«155438_j584115552925_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable {α : Type}

/-! ## One row

The logarithm of the softmax of one row of forty entries: the row less its largest entry (a fold of `max` from the
value `ninf`), less the logarithm of `zero` plus the sum of the exponentials of that. Both programs compute this of
each row of the first operand with the bias row added. -/

/-- A row's largest entry, folded from `ninf`. -/
def rowTop (ninf : EReal) (z : Fin 40 → EReal) : EReal := (Finset.univ : Finset (Fin 40)).fold max ninf z

/-- The log-softmax of one row at entry `q`. -/
def rowLogSoftmax (ninf zero : EReal) (z : Fin 40 → EReal) (q : Fin 40) : EReal :=
  (z q - rowTop ninf z) - Ideal.log (zero + ∑ k : Fin 40, Ideal.exp (z k - rowTop ninf z))

/-- The fold already dominates the value it starts from, so one more `max` against that value changes nothing. -/
theorem max_rowTop (ninf : EReal) (z : Fin 40 → EReal) : max ninf (rowTop ninf z) = rowTop ninf z :=
  max_eq_right ((Finset.le_fold_max ninf).mpr (Or.inl le_rfl))

/-! ## Layout operations at an index given by coordinates -/

/-- In a reduction of an `[n, 40]` array along its rows, the source index over row `p` with coordinate `k` inserted
    is `(p, k)`. -/
theorem lift_row {n : ℕ} (h : (⟨2, ![n, 40]⟩ : Shape).Reduces [1] ⟨1, ![n]⟩) (p : Fin n) (k : Fin 40) :
    h.lift (ix1 p) k = ix2 p k := by
  funext c; apply Fin.ext
  match c with
  | ⟨0, _⟩ => rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along rows of forty reads, at `(p, c)`, the column at `p`. -/
theorem broadcastTo_a1_ab_apply {a : ℕ} (v : (⟨2, ![a, 1]⟩ : Shape).Idx → α) (h : (⟨2, ![a, 1]⟩ : Shape).Broadcasts ⟨2, ![a, 40]⟩)
    (p : Fin a) (c : Fin 40) : broadcastTo ⟨2, ![a, 40]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: a vector `[a]` made a column, then spread along rows of forty. -/
theorem broadcastInDim_col_apply {a : ℕ} (w : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, 40]⟩ ![0, 1]) (r : Fin a) (q : Fin 40) :
    broadcastInDim ⟨2, ![a, 40]⟩ ![0, 1] h2 (broadcastInDim ⟨2, ![a, 1]⟩ ![0] h1 w) (ix2 r q) = w (ix1 r) := by
  refine (broadcastInDim_apply ![0, 1] h2 _ (ix2 r q) (ix2 r (0 : Fin 1)) fun ax => ?_).trans
    (broadcastInDim_apply ![0] h1 w (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

/-- A column `[a, 1]` spread along rows of forty by the host reads, at `(r, q)`, the column at `r`. -/
theorem broadcastInDim_a1_ab_apply {a : ℕ} (v : (⟨2, ![a, 1]⟩ : Shape).Idx → α)
    (h2 : (⟨2, ![a, 1]⟩ : Shape).BroadcastsInDim ⟨2, ![a, 40]⟩ ![0, 1]) (r : Fin a) (q : Fin 40) :
    broadcastInDim ⟨2, ![a, 40]⟩ ![0, 1] h2 v (ix2 r q) = v (ix2 r (0 : Fin 1)) := by
  refine broadcastInDim_apply ![0, 1] h2 v (ix2 r q) (ix2 r (0 : Fin 1)) fun ax => ?_
  match ax with
  | ⟨0, _⟩ =>
    show r.val = if a = 1 then 0 else r.val
    split
    · have := r.isLt; omega
    · rfl
  | ⟨1, _⟩ => rfl

/-- A vector `[a]` made a column by the host reads, at `(r, u)`, the vector at `r`. -/
theorem broadcastInDim_a_a1_apply {a : ℕ} (w : (⟨1, ![a]⟩ : Shape).Idx → α)
    (h1 : (⟨1, ![a]⟩ : Shape).BroadcastsInDim ⟨2, ![a, 1]⟩ ![0]) (r : Fin a) (u : Fin 1) :
    broadcastInDim ⟨2, ![a, 1]⟩ ![0] h1 w (ix2 r u) = w (ix1 r) := by
  refine broadcastInDim_apply ![0] h1 w (ix2 r u) (ix1 r) fun ax => ?_
  match ax with
  | ⟨0, _⟩ =>
    show r.val = if a = 1 then 0 else r.val
    split
    · have := r.isLt; omega
    · rfl

/-- One row `[1, 40]` spread over `a` rows by the host reads, at `(r, q)`, the row at `q`. -/
theorem broadcastInDim_1b_ab_apply {a : ℕ} (b : (⟨2, ![1, 40]⟩ : Shape).Idx → α)
    (h : (⟨2, ![1, 40]⟩ : Shape).BroadcastsInDim ⟨2, ![a, 40]⟩ ![0, 1]) (r : Fin a) (q : Fin 40) :
    broadcastInDim ⟨2, ![a, 40]⟩ ![0, 1] h b (ix2 r q) = b (ix2 (0 : Fin 1) q) := by
  refine broadcastInDim_apply ![0, 1] h b (ix2 r q) (ix2 (0 : Fin 1) q) fun ax => ?_
  match ax with
  | ⟨0, _⟩ => rfl
  | ⟨1, _⟩ => rfl

/-! ## The four row reductions, each read at a row -/

/-- The vector unit's maximum along rows of forty, at row `p`: the fold of `max` over the row from the accumulator's value. -/
theorem multiReduction_max_row {n : ℕ} (src : FVec Ideal ⟨2, ![n, 40]⟩ .f32) (acc : BitVec 32)
    (h : (⟨2, ![n, 40]⟩ : Shape).Reduces [1] ⟨1, ![n]⟩) (hφ : FKind.Formats .f32)
    (hacc : acc = FKind.maximumf.neutral .f32 hφ) (p : Fin n) :
    multiReduction (F := Ideal) .maximumf [1] ⟨1, ![n]⟩ src acc h hφ hacc (ix1 p)
      = rowTop (Ideal.ofBits .f32 acc) (fun k => src (ix2 p k)) := by
  refine (Ideal.multiReduction_maximumf_single src acc h hφ hacc (ix1 p)).trans ?_
  show (Finset.univ : Finset (Fin 40)).fold max (Ideal.ofBits .f32 acc) (fun k => src (h.lift (ix1 p) k)) = _
  exact congrArg (fun g => (Finset.univ : Finset (Fin 40)).fold max (Ideal.ofBits .f32 acc) g)
    (funext fun k => congrArg src (lift_row h p k))

/-- The host's maximum along rows of forty, at row `r`: the same fold from the initial value. -/
theorem hostReduce_max_row {n : ℕ} (x : FVec Ideal ⟨2, ![n, 40]⟩ .f32) (init : (⟨0, ![]⟩ : Shape).Idx → EReal)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduce (FloatOps.maximumf (F := Ideal) (φ := .f32)) x init h' hu (ix1 r)
      = rowTop (init ix0) (fun k => x (ix2 r k)) := by
  refine (Host.reduce_eq_fold_single (FloatOps.maximumf (F := Ideal) (φ := .f32)) x init h' h hu (ix1 r)).trans ?_
  show (Finset.univ : Finset (Fin 40)).fold max (init (Shape.Idx.first hu)) (fun k => x (h.lift (ix1 r) k)) = _
  rw [eq_ix0 (Shape.Idx.first hu)]
  exact congrArg (fun g => (Finset.univ : Finset (Fin 40)).fold max (init ix0) g)
    (funext fun k => congrArg x (lift_row h r k))

/-- The vector unit's sum along rows of forty, at row `p`. -/
theorem multiReduction_add_row {n : ℕ} (src : FVec Ideal ⟨2, ![n, 40]⟩ .f32) (acc : BitVec 32)
    (h : (⟨2, ![n, 40]⟩ : Shape).Reduces [1] ⟨1, ![n]⟩) (hφ : FKind.Formats .f32)
    (hacc : acc = FKind.add.neutral .f32 hφ) (p : Fin n) :
    multiReduction (F := Ideal) .add [1] ⟨1, ![n]⟩ src acc h hφ hacc (ix1 p) = ∑ k : Fin 40, src (ix2 p k) := by
  refine (Ideal.multiReduction_add_single src acc h hφ hacc (ix1 p)).trans ?_
  show ∑ k : Fin 40, src (h.lift (ix1 p) k) = _
  exact Finset.sum_congr rfl fun k _ => congrArg src (lift_row h p k)

/-- The host's sum along rows of forty, at row `r`: the initial value plus the row's sum. -/
theorem hostReduceAdd_row {n : ℕ} (x : FVec Ideal ⟨2, ![n, 40]⟩ .f32) (init : (⟨0, ![]⟩ : Shape).Idx → EReal)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduceAdd (F := Ideal) x init h' hu (ix1 r) = init ix0 + ∑ k : Fin 40, x (ix2 r k) := by
  refine (hostReduceAdd_apply x init h' hu (ix1 r)).trans ?_
  refine (Ideal.hostReduceAdd_single h' h x (init (Shape.Idx.first hu)) (ix1 r)).trans ?_
  rw [eq_ix0 (Shape.Idx.first hu)]
  show init ix0 + ∑ k : Fin 40, x (h.lift (ix1 r) k) = _
  exact congrArg _ (Finset.sum_congr rfl fun k _ => congrArg x (lift_row h r k))

/-! ## The kernel's payload at an index -/

/-- The block with the bias row added to each of its rows. -/
def biased (x0 : Vec Ideal S5000x40 .f32) (x1 : Vec Ideal S1x40 .f32) : FVec Ideal S5000x40 .f32 :=
  addf (shapeCast S5000x40 x0 shapeCasts_S5000x40_S5000x40)
    (broadcastTo S5000x40 (shapeCast S1x40 x1 shapeCasts_S1x40_S1x40) broadcasts_S1x40_S5000x40)

/-- Each row's largest entry, spread along the row. -/
def topAlong (z : FVec Ideal S5000x40 .f32) : FVec Ideal S5000x40 .f32 :=
  broadcastTo S5000x40 (shapeCast S5000x1 (multiReduction .maximumf [1] S5000 z 0xFF800000#32 reduces_S5000x40_S5000 (.inl rfl) rfl)
    shapeCasts_S5000_S5000x1) broadcasts_S5000x1_S5000x40

/-- The logarithm of each row's sum of exponentials, spread along the row. -/
def logSumAlong (d : FVec Ideal S5000x40 .f32) : FVec Ideal S5000x40 .f32 :=
  broadcastTo S5000x40 (log (shapeCast S5000x1 (multiReduction .add [1] S5000 (exp d) 0x00000000#32 reduces_S5000x40_S5000 (.inl rfl) rfl)
    shapeCasts_S5000_S5000x1)) broadcasts_S5000x1_S5000x40

/-- The payload is the biased block less its row maxima, less the logarithm of the row sums of the exponentials of that. -/
theorem pay_eq (x0 : Vec Ideal S5000x40 .f32) (x1 : Vec Ideal S1x40 .f32) :
    k3_pay1 (F := Ideal) x0 x1
      = subf (subf (biased x0 x1) (topAlong (biased x0 x1))) (logSumAlong (subf (biased x0 x1) (topAlong (biased x0 x1)))) := rfl

theorem biased_apply (x0 : Vec Ideal S5000x40 .f32) (x1 : Vec Ideal S1x40 .f32) (p : Fin 5000) (k : Fin 40) :
    biased x0 x1 (ix2 p k) = (x0 (ix2 p k) : EReal) + (x1 (ix2 (0 : Fin 1) k) : EReal) := by
  unfold biased
  rw [addf_apply, shapeCast_self, shapeCast_self, broadcastTo_1b_ab_apply]

theorem topAlong_apply (z : FVec Ideal S5000x40 .f32) (p : Fin 5000) (q : Fin 40) :
    topAlong z (ix2 p q) = rowTop (Ideal.ofBits .f32 0xFF800000#32) (fun k => z (ix2 p k)) := by
  unfold topAlong
  rw [broadcastTo_a1_ab_apply, shapeCast_a_a1_apply]
  exact multiReduction_max_row z _ _ _ _ p

theorem logSumAlong_apply (d : FVec Ideal S5000x40 .f32) (p : Fin 5000) (q : Fin 40) :
    logSumAlong d (ix2 p q) = Ideal.log (∑ k : Fin 40, Ideal.exp (d (ix2 p k))) := by
  unfold logSumAlong
  rw [broadcastTo_a1_ab_apply]
  show Ideal.log (shapeCast S5000x1 (multiReduction .add [1] S5000 (exp d) 0x00000000#32 reduces_S5000x40_S5000 (.inl rfl) rfl)
    shapeCasts_S5000_S5000x1 (ix2 p (0 : Fin 1))) = _
  rw [shapeCast_a_a1_apply]
  exact congrArg Ideal.log (multiReduction_add_row (exp d) _ _ _ _ p)

/-- The payload at `(p, q)`: the log-softmax of row `p` of the block plus the bias row, at entry `q` (the kernel's sum
    starts from nothing, which is adding `0`). -/
theorem pay_apply (x0 : Vec Ideal S5000x40 .f32) (x1 : Vec Ideal S1x40 .f32) (p : Fin 5000) (q : Fin 40) :
    k3_pay1 (F := Ideal) x0 x1 (ix2 p q)
      = rowLogSoftmax (Ideal.ofBits .f32 0xFF800000#32) 0
          (fun k => (x0 (ix2 p k) : EReal) + (x1 (ix2 (0 : Fin 1) k) : EReal)) q := by
  rw [pay_eq, subf_apply, logSumAlong_apply, subf_apply, topAlong_apply]
  unfold rowLogSoftmax
  rw [zero_add]
  have hz : (fun k => biased x0 x1 (ix2 p k)) = fun k => (x0 (ix2 p k) : EReal) + (x1 (ix2 (0 : Fin 1) k) : EReal) :=
    funext fun k => biased_apply x0 x1 p k
  simp only [subf_apply, topAlong_apply, hz, biased_apply]

/-! ## The host's function at an index -/

/-- The host's logarithm and exponential act entry by entry, as the kernel's do. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

theorem addBias1_apply (a : FVec Ideal ⟨2, ![100000, 40]⟩ .f32) (b : FVec Ideal ⟨2, ![1, 40]⟩ .f32) (r : Fin 100000) (k : Fin 40) :
    Cert.Spec.addBias1 (F := Ideal) a b (ix2 r k) = (a (ix2 r k) : EReal) + (b (ix2 (0 : Fin 1) k) : EReal) := by
  unfold Cert.Spec.addBias1
  rw [addf_apply, broadcastInDim_1b_ab_apply]

/-- The host's row maximum: the fold over the row from the word for minus infinity; the further `max` against that same
    value, which the fold already dominates, changes nothing. -/
theorem rowMax_apply (z : FVec Ideal ⟨2, ![100000, 40]⟩ .f32) (r : Fin 100000) :
    Cert.Spec.rowMax (F := Ideal) z (ix1 r) = rowTop (Ideal.ofBits .f32 0xFF800000#32) (fun k => z (ix2 r k)) := by
  unfold Cert.Spec.rowMax
  rw [maximumf_apply, hostReduce_max_row z _ _ (by decide) _ r]
  exact max_rowTop _ _

/-- A row less its largest entry, as the host spells it (the maxima made a column, the column spread along the rows). -/
theorem centred_apply (z : FVec Ideal ⟨2, ![100000, 40]⟩ .f32) (r : Fin 100000) (k : Fin 40) :
    subf z (broadcastInDim Cert.ReferenceIdeal.S100000x40 ![0, 1] Cert.ReferenceIdeal.Gen.bcast_S100000x1_S100000x40_0_1
        (broadcastInDim Cert.ReferenceIdeal.S100000x1 ![0] Cert.ReferenceIdeal.Gen.bcast_S100000_S100000x1_0
          (Cert.Spec.rowMax (F := Ideal) z))) (ix2 r k)
      = z (ix2 r k) - rowTop (Ideal.ofBits .f32 0xFF800000#32) (fun k => z (ix2 r k)) := by
  rw [subf_apply, broadcastInDim_col_apply, rowMax_apply]

/-- The host's log-softmax of the rows, at `(r, q)`: that of row `r` at entry `q`, the sum started from the zero word. -/
theorem logSoftmaxRows_apply (z : FVec Ideal ⟨2, ![100000, 40]⟩ .f32) (r : Fin 100000) (q : Fin 40) :
    Cert.Spec.logSoftmaxRows (F := Ideal) z (ix2 r q)
      = rowLogSoftmax (Ideal.ofBits .f32 0xFF800000#32) (Ideal.ofBits .f32 0x00000000#32) (fun k => z (ix2 r k)) q := by
  unfold Cert.Spec.logSoftmaxRows
  rw [subf_apply, centred_apply, broadcastInDim_a1_ab_apply]
  rw [hostLog_apply, broadcastInDim_a_a1_apply, hostReduceAdd_row _ _ _ (by decide) _ r]
  unfold rowLogSoftmax
  refine congrArg (fun s => (z (ix2 r q) - rowTop (Ideal.ofBits .f32 0xFF800000#32) (fun k => z (ix2 r k)))
    - Ideal.log (Ideal.ofBits .f32 0x00000000#32 + s)) (Finset.sum_congr rfl fun k _ => ?_)
  rw [hostExp_apply, centred_apply]

/-- The host's function at `(r, q)`: the log-softmax of row `r` of the first operand plus the bias row, at entry `q`. -/
theorem spec_apply (a : FVec Ideal ⟨2, ![100000, 40]⟩ .f32) (b : FVec Ideal ⟨2, ![1, 40]⟩ .f32) (r : Fin 100000) (q : Fin 40) :
    Cert.Spec.biasLogSoftmax1 (F := Ideal) a b (ix2 r q)
      = rowLogSoftmax (Ideal.ofBits .f32 0xFF800000#32) 0
          (fun k => (a (ix2 r k) : EReal) + (b (ix2 (0 : Fin 1) k) : EReal)) q := by
  unfold Cert.Spec.biasLogSoftmax1
  rw [logSoftmaxRows_apply, Ideal.ofBits_zero_f32]
  exact congrArg (fun z => rowLogSoftmax (Ideal.ofBits .f32 0xFF800000#32) 0 z q) (funext fun k => addBias1_apply a b r k)

/-! ## A block of the kernel against the rows of the host's function it covers -/

/-- If a block holds rows `o … o + 4999` of `a` and the bias row is `b`, the payload at an entry of the block is the host's
    function of `a` and `b` at that entry's place in the array. -/
theorem block_eq (x0 : Vec Ideal S5000x40 .f32) (x1 : Vec Ideal S1x40 .f32)
    (a : FVec Ideal ⟨2, ![100000, 40]⟩ .f32) (b : FVec Ideal ⟨2, ![1, 40]⟩ .f32) (o : ℕ)
    (h0 : ∀ (j : S5000x40.Idx) (i : S100000x40.Idx), (i 0).val = o + (j 0).val → (i 1).val = (j 1).val → x0 j = a i)
    (h1 : ∀ j : S1x40.Idx, x1 j = b j)
    (j : S5000x40.Idx) (i : S100000x40.Idx) (hi0 : (i 0).val = o + (j 0).val) (hi1 : (i 1).val = (j 1).val) :
    k3_pay1 (F := Ideal) x0 x1 j = Cert.Spec.biasLogSoftmax1 (F := Ideal) a b i := by
  obtain ⟨p, q, rfl⟩ : ∃ (p : Fin 5000) (q : Fin 40), j = ix2 p q := ⟨j 0, j 1, eq_ix2 j⟩
  obtain ⟨r, q', rfl⟩ : ∃ (r : Fin 100000) (q' : Fin 40), i = ix2 r q' := ⟨i 0, i 1, eq_ix2 i⟩
  obtain rfl : q' = q := Fin.ext hi1
  rw [pay_apply, spec_apply]
  exact congrArg (fun z => rowLogSoftmax (Ideal.ofBits .f32 0xFF800000#32) 0 z q')
    (funext fun k => by rw [h0 (ix2 p k) (ix2 r k) hi0 rfl, h1])

/-! ## From blocks to the array -/

section Array

variable (V : (c : Dev nD) → (b : Ref sig .tc) → Buf (Elt Ideal) ((c : Thread nD τ).loc b))

theorem origin_eq : (![0, 0] : Fin 2 → Nat) = fun _ => 0 := funext fun a => by fin_cases a <;> rfl

/-- The printed index maps over the grid: point `t` stages block row `t` of the first operand and the whole bias row, and
    writes back block row `t` of the result. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the host's function of the two operand arrays as the region finds them:
    rows `5000 t … 5000 t + 4999`, each of which depends only on the same row of the first operand and on the bias row. -/
theorem flushed_eq (c : Dev nD) (t : Fin cfg3.N) :
    (dat3 (F := Ideal) V c).flushed 2 t
      = ((cfg3.win 2).blk t).view.read (Elt Ideal) (Cert.Spec.biasLogSoftmax1 (V c main_v59) (V c main_v60)) := by
  show (cfg3.win 2).cut (grid3.coords t) ((dat3 V c).after 2 t) = _
  rw [after3_2]
  unfold out3_2
  rw [View.canon_unit_zero origin_eq]
  simp only [View.ld_unit_zero (S := S5000x40) origin_eq, View.ld_unit_zero (S := S1x40) origin_eq]
  obtain ⟨e0, e1, e2, e3, e4, e5⟩ := block_indices t
  funext j
  show k3_pay1 (F := Ideal) (iblk3 V c 0 t) (iblk3 V c 1 t) j
    = Cert.Spec.biasLogSoftmax1 (V c main_v59) (V c main_v60) (((cfg3.win 2).blk t).view.emb j)
  refine block_eq (iblk3 V c 0 t) (iblk3 V c 1 t) (V c main_v59) (V c main_v60) (5000 * t.val)
    (fun j i hi0 hi1 => ?_) (fun j => ?_) j _ ?_ ?_
  · show V c main_v59 (((cfg3.win 0).blk t).view.emb j) = V c main_v59 i
    refine congrArg _ (funext fun a => Fin.ext ?_)
    match a with
    | ⟨0, _⟩ => show win3_0.index t (0 : Fin 2) * 5000 + 1 * (j 0).val = (i 0).val; omega
    | ⟨1, _⟩ => show win3_0.index t (1 : Fin 2) * 40 + 1 * (j 1).val = (i 1).val; omega
  · show V c main_v60 (((cfg3.win 1).blk t).view.emb j) = V c main_v60 j
    refine congrArg _ (funext fun a => Fin.ext ?_)
    match a with
    | ⟨0, _⟩ => show win3_1.index t (0 : Fin 2) * 1 + 1 * (j 0).val = (j 0).val; omega
    | ⟨1, _⟩ => show win3_1.index t (1 : Fin 2) * 40 + 1 * (j 1).val = (j 1).val; omega
  · show win3_2.index t (0 : Fin 2) * 5000 + 1 * (j 0).val = 5000 * t.val + (j 0).val; omega
  · show win3_2.index t (1 : Fin 2) * 40 + 1 * (j 1).val = (j 1).val; omega

/-- An index of the result array is in point `t`'s block iff each coordinate is in the block's range on its axis. -/
theorem mem_blk (t : Fin cfg3.N) (i : S100000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v61).slice (win3_2.rect t)).set ↔ _
  rw [View.set_slice_whole, Rect.mem_set_unit]
  exact Iff.rfl

/-- The twenty blocks of 5000 rows tile the 100000 rows: row `r` lies in the block of point `r / 5000`. -/
theorem covered (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : grid3.N = 20 := N_3
  have ht : (i 0).val / 5000 < cfg3.N := by show (i 0).val / 5000 < grid3.N; omega
  obtain ⟨-, -, -, -, e4, e5⟩ := block_indices ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 40 ≤ (i 1).val
      ∧ (i 1).val < win3_2.index ⟨(i 0).val / 5000, ht⟩ (1 : Fin 2) * 40 + 40
    rw [e5]; omega

/-- The result array after region 3: the host's bias-and-log-softmax of the two operand arrays as the region finds them. -/
theorem arr_eq (c : Dev nD) :
    (Cert.KernelIdeal.Gen.dat3 (F := Ideal) V c).arrAt 2 cfg3.N = Cert.Spec.biasLogSoftmax1 (V c main_v59) (V c main_v60) :=
  (dat3 (F := Ideal) V c).arrAt_eq_of_cover 2 _ (fun t _ => flushed_eq V c t) covered

end Array

end Cert.KernelIdeal.Region3

end
-- ==== Proof.FoldEntry.lean ====
/-
  What the kernel's host code computes before its first two kernels, as the network's functions of the launch arrays.

  The host operations before the first kernel build the edge list's sources and destinations (one self loop per node
  appended), the degree of every node, the inverse square root of the degree clipped below at 1, and from these the
  weight of every edge; they leave the first kernel's two operands as launched. The operations between the first and
  the second kernel aggregate the first kernel's result along the edges and cast the first layer's bias to one row.
  Each of these is the function of the same name in `Cert.Spec`.
-/
import proofs.«155438_j584115552925_1_alg».proof.Proof.Gen.KernelIdeal.Frame
import proofs.«155438_j584115552925_1_alg».proof.Proof.Spec
import Idealize.ShloMosaic.Lib.StableHlo.Run
import Idealize.ShloMosaic.Lib.ValueLayout

set_option maxRecDepth 16384

noncomputable section

namespace Cert.KernelIdeal.FoldEntry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch writes holds after the stretch what it held before. -/
local macro "keeps " h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Each stretch of host operations, from any contents `V` at its start

What a stretch leaves at one buffer is a function of what it found at the buffers it reads. Stated at a parameter, a
stretch's lemma mentions no earlier stretch, and the run composes them by rewriting. -/

section Stretch

variable (V : Valuation τ sig (Elt F))

/-- Row 0 of the edge list with one self loop per node appended. -/
theorem ops0_src :
    StableHlo.after hostOps0 V (Proc.devRef .tc main_v3) = Cert.Spec.src (V (Proc.devRef .tc main_arg1)) := by
  after_results
  rfl

/-- Row 1 of the edge list with one self loop per node appended. -/
theorem ops0_dst :
    StableHlo.after hostOps0 V (Proc.devRef .tc main_v6) = Cert.Spec.dst (V (Proc.devRef .tc main_arg1)) := by
  after_results
  rfl

/-- The number of edges that end in each node. -/
theorem ops0_degree :
    StableHlo.after hostOps0 V (Proc.devRef .tc main_v10)
      = Cert.Spec.degree (Cert.Spec.dst (V (Proc.devRef .tc main_arg1))) := by
  after_results
  rfl

/-- Where the degree is positive. -/
theorem ops0_positive :
    StableHlo.after hostOps0 V (Proc.devRef .tc main_v12)
      = cmpf (F := F) .ogt (Cert.Spec.degree (Cert.Spec.dst (V (Proc.devRef .tc main_arg1))))
          (broadcastInDim S100000 ![] bcast_S_S100000 (constant S_ .f32 0x00000000#32)) := by
  after_results
  rfl

/-- The constant 1 the selection falls back to. -/
theorem ops0_one :
    StableHlo.after hostOps0 V (Proc.devRef .tc main_cst_2) = constant (F := F) S_ .f32 0x3F800000#32 := by
  after_results

/-- The outlined selection: its second operand where the first holds, the third's broadcast elsewhere. -/
theorem ops01_clipped :
    StableHlo.after hostOps0_1 V (Proc.devRef .tc main_v13)
      = select (V (Proc.devRef .tc main_v12)) (V (Proc.devRef .tc main_v10))
          (broadcastInDim S100000 ![] bcast_S_S100000 (id (V (Proc.devRef .tc main_cst_2)))) := by
  after_results
  simp only [StableHlo.TRef.ofBuf, StableHlo.TRef.toBuf, cast_eq]

/-- The edge weights: the inverse square root of the clipped degree, gathered at both ends of every edge (each index
    wrapped into range), the two multiplied. -/
theorem ops02_norm :
    StableHlo.after hostOps0_2 V (Proc.devRef .tc main_v29)
      = mulf
          (Host.gather gather_S100000_S3300000x1_S3300000_n_0_n_n_0_1_1 (Host.rsqrt (V (Proc.devRef .tc main_v13)))
            (broadcastInDim S3300000x1 ![0] bcast_S3300000_S3300000x1_0 (Cert.Spec.wrapIdx (V (Proc.devRef .tc main_v3)))))
          (Host.gather gather_S100000_S3300000x1_S3300000_n_0_n_n_0_1_1 (Host.rsqrt (V (Proc.devRef .tc main_v13)))
            (broadcastInDim S3300000x1 ![0] bcast_S3300000_S3300000x1_0 (Cert.Spec.wrapIdx (V (Proc.devRef .tc main_v6))))) := by
  after_results_simp
  rfl

/-- The aggregation over rows of 64. -/
theorem ops1_agg :
    StableHlo.after hostOps1 V (Proc.devRef .tc main_v43)
      = Cert.Spec.aggr64 (V (Proc.devRef .tc main_v30)) (V (Proc.devRef .tc main_v3)) (V (Proc.devRef .tc main_v6))
          (V (Proc.devRef .tc main_v29)) := by
  after_results_simp
  rfl

/-- The bias vector cast to one row. -/
theorem ops1_bias :
    StableHlo.after hostOps1 V (Proc.devRef .tc main_v44)
      = shapeCast S1x64 (V (Proc.devRef .tc main_arg3)) shapeCasts_S64_S1x64 := by
  after_results
  rfl

end Stretch

/-! ## The edge list's two rows through the run -/

theorem W1_src (c : Dev nD) :
    W1 m ρ c (Proc.devRef .tc main_v3) = Cert.Spec.src (m ((c : Thread nD τ).loc main_arg1)) :=
  ops0_src (W0 m ρ c)

theorem W1_dst (c : Dev nD) :
    W1 m ρ c (Proc.devRef .tc main_v6) = Cert.Spec.dst (m ((c : Thread nD τ).loc main_arg1)) :=
  ops0_dst (W0 m ρ c)

/-- Neither the outlined selection nor the stretch before the first kernel writes the sources or the destinations. -/
theorem W2_src (c : Dev nD) :
    W2 m ρ c (Proc.devRef .tc main_v3) = Cert.Spec.src (m ((c : Thread nD τ).loc main_arg1)) :=
  (show W2 m ρ c (Proc.devRef .tc main_v3) = W1 m ρ c (Proc.devRef .tc main_v3) by keeps hostOps0_1).trans (W1_src m ρ c)

theorem W2_dst (c : Dev nD) :
    W2 m ρ c (Proc.devRef .tc main_v6) = Cert.Spec.dst (m ((c : Thread nD τ).loc main_arg1)) :=
  (show W2 m ρ c (Proc.devRef .tc main_v6) = W1 m ρ c (Proc.devRef .tc main_v6) by keeps hostOps0_1).trans (W1_dst m ρ c)

theorem W3_src (c : Dev nD) :
    W3 m ρ c (Proc.devRef .tc main_v3) = Cert.Spec.src (m ((c : Thread nD τ).loc main_arg1)) :=
  (show W3 m ρ c (Proc.devRef .tc main_v3) = W2 m ρ c (Proc.devRef .tc main_v3) by keeps hostOps0_2).trans (W2_src m ρ c)

theorem W3_dst (c : Dev nD) :
    W3 m ρ c (Proc.devRef .tc main_v6) = Cert.Spec.dst (m ((c : Thread nD τ).loc main_arg1)) :=
  (show W3 m ρ c (Proc.devRef .tc main_v6) = W2 m ρ c (Proc.devRef .tc main_v6) by keeps hostOps0_2).trans (W2_dst m ρ c)

/-! ## The clipped degree and the edge weights -/

/-- After the outlined selection: the degree where it is positive, 1 elsewhere. -/
theorem W2_clipped (c : Dev nD) :
    W2 m ρ c (Proc.devRef .tc main_v13)
      = select (cmpf (F := F) .ogt (Cert.Spec.degree (Cert.Spec.dst (m ((c : Thread nD τ).loc main_arg1))))
            (broadcastInDim S100000 ![] bcast_S_S100000 (constant S_ .f32 0x00000000#32)))
          (Cert.Spec.degree (Cert.Spec.dst (m ((c : Thread nD τ).loc main_arg1))))
          (broadcastInDim S100000 ![] bcast_S_S100000 (id (constant S_ .f32 0x3F800000#32))) := by
  refine (ops01_clipped (W1 m ρ c)).trans ?_
  rw [show W1 m ρ c (Proc.devRef .tc main_v12) = _ from ops0_positive (W0 m ρ c),
    show W1 m ρ c (Proc.devRef .tc main_v10) = _ from ops0_degree (W0 m ρ c),
    show W1 m ρ c (Proc.devRef .tc main_cst_2) = _ from ops0_one (W0 m ρ c)]

theorem W3_norm (c : Dev nD) :
    W3 m ρ c (Proc.devRef .tc main_v29) = Cert.Spec.norm (m ((c : Thread nD τ).loc main_arg1)) := by
  refine (ops02_norm (W2 m ρ c)).trans ?_
  rw [W2_clipped, W2_src, W2_dst]
  rfl

/-! ## The first kernel's two operands are as launched -/

theorem V3_x (c : Dev nD) : V3 m ρ c main_arg0 = m ((c : Thread nD τ).loc main_arg0) :=
  calc W3 m ρ c (Proc.devRef .tc main_arg0)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

theorem V3_w1 (c : Dev nD) : V3 m ρ c main_arg2 = m ((c : Thread nD τ).loc main_arg2) :=
  calc W3 m ρ c (Proc.devRef .tc main_arg2)
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

/-! ## Between the first two kernels: the aggregation and the bias row -/

/-- The first kernel writes none of the three edge arrays, so the aggregation reads them as the first kernel's entry
    had them. -/
theorem V5_agg (c : Dev nD) :
    V5 m ρ c main_v43
      = Cert.Spec.aggr64 (V4 m ρ c main_v30) (W3 m ρ c (Proc.devRef .tc main_v3)) (W3 m ρ c (Proc.devRef .tc main_v6))
          (W3 m ρ c (Proc.devRef .tc main_v29)) := by
  refine (ops1_agg (W4 m ρ c)).trans ?_
  rw [W4_of_ne m ρ c main_v3 (by decide), W4_of_ne m ρ c main_v6 (by decide), W4_of_ne m ρ c main_v29 (by decide)]

/-- The bias vector of the first layer reaches the stretch between the first two kernels as launched. -/
theorem W4_b1 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

/-- A vector of 64 entries cast to one row is the vector broadcast along the row: both read entry j at (0, j). -/
theorem row_eq {α : Type} (b : S64.Idx → α) (h : S64.ShapeCasts S1x64) (h' : S64.BroadcastsInDim S1x64 ![1]) :
    shapeCast S1x64 b h = broadcastInDim S1x64 ![1] h' b := by
  funext j
  have e : j = ValueIdx.ix2 (n0 := 1) (n1 := 64) (j 0) (j 1) := ValueIdx.eq_ix2 (n0 := 1) (n1 := 64) j
  calc shapeCast S1x64 b h j
    _ = shapeCast S1x64 b h (ValueIdx.ix2 (n0 := 1) (n1 := 64) (j 0) (j 1)) := congrArg _ e
    _ = b (ValueIdx.ix1 (j 1)) := ValueIdx.shapeCast_a_1a_apply (a := 64) b h (j 0) (j 1)
    _ = broadcastInDim S1x64 ![1] h' b j :=
        (broadcastInDim_apply ![1] h' b j (ValueIdx.ix1 (j 1)) (fun a => match a with | ⟨0, _⟩ => rfl)).symm

theorem V5_bias (c : Dev nD) :
    V5 m ρ c main_v44 = Cert.Spec.biasRow64 (m ((c : Thread nD τ).loc main_arg3)) := by
  refine (ops1_bias (W4 m ρ c)).trans ?_
  rw [W4_b1]
  exact row_eq _ _ _

end Cert.KernelIdeal.FoldEntry
end
-- ==== Proof.FoldTail.lean ====
/-
  The tail of the fold of the kernel's @main through its segments, read at the buffers the last two regions take.

  Region 2 finds its weight operand as launched: no host operation writes an argument, and the first two regions do
  not have it among their arrays. The stretch of host operations between regions 2 and 3 computes, of region 2's
  result and of the three edge arrays (sources, destinations, weights), which nothing has written since region 0 was
  entered, the aggregation over rows of 40; and it reshapes the second bias vector to one row, which is the
  broadcast of the vector along a new leading axis of extent one.
-/
import proofs.«155438_j584115552925_1_alg».proof.Proof.Gen.KernelIdeal.Frame
import proofs.«155438_j584115552925_1_alg».proof.Proof.Spec
import Idealize.ShloMosaic.Lib.StableHlo.Run
import Idealize.ShloMosaic.Lib.ValueIdx
import Idealize.ShloMosaic.Lib.ValueLayout

set_option maxRecDepth 16384

noncomputable section

namespace Cert.KernelIdeal.FoldTail

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a literal stretch writes keeps its contents across the stretch: the stretch's
    result buffers, each a singleton, are told apart from the buffer as references. -/
local macro "unwritten " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The same as a fact about the stretch: no operation of it writes the buffer. -/
local macro "unwritten_by " ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The second layer's weights reach region 2 as launched -/

theorem V6_w2 (c : Dev nD) : V6 m ρ c main_arg4 = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by unwritten hostOps1
    _ = W3 m ρ c (Proc.devRef .tc main_arg4) := W4_of_ne m ρ c main_arg4 (by decide)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

/-! ## The edge arrays reach the last stretch as region 0 found them -/

/-- A buffer that is an array of none of the first three regions, and that the stretch before region 1 does not
    write, holds at region 2's exit what it held at region 0's entry. -/
theorem W7_eq_W3 (c : Dev nD) (r : Ref sig .tc) (h2 : ∀ w, Pipeline.arrRef spec2 w ≠ r) (h1 : ∀ w, Pipeline.arrRef spec1 w ≠ r)
    (h0 : ∀ w, Pipeline.arrRef spec0 w ≠ r)
    (hops : ∀ op ∈ (hostOps1 : List (HloOp τ sig (Elt F))), Proc.devRef .tc r ∉ op.writes) :
    W7 m ρ c (Proc.devRef .tc r) = W3 m ρ c (Proc.devRef .tc r) :=
  (W7_of_ne m ρ c r h2).trans ((W6_of_ne m ρ c r h1).trans
    ((StableHlo.after_of_forall_not_mem (b := Proc.devRef .tc r) _ _ hops).trans (W4_of_ne m ρ c r h0)))

theorem W7_src (c : Dev nD) : W7 m ρ c (Proc.devRef .tc main_v3) = W3 m ρ c (Proc.devRef .tc main_v3) :=
  W7_eq_W3 m ρ c main_v3 (by decide) (by decide) (by decide) (by unwritten_by hostOps1)
theorem W7_dst (c : Dev nD) : W7 m ρ c (Proc.devRef .tc main_v6) = W3 m ρ c (Proc.devRef .tc main_v6) :=
  W7_eq_W3 m ρ c main_v6 (by decide) (by decide) (by decide) (by unwritten_by hostOps1)
theorem W7_norm (c : Dev nD) : W7 m ρ c (Proc.devRef .tc main_v29) = W3 m ρ c (Proc.devRef .tc main_v29) :=
  W7_eq_W3 m ρ c main_v29 (by decide) (by decide) (by decide) (by unwritten_by hostOps1)

/-! ## The aggregation over rows of 40 -/

/-- From any contents, the last stretch of host operations leaves in its scatter-add's result the aggregation of
    the four arrays it reads: the node rows, the sources, the destinations and the edge weights. -/
theorem agg_stretch (V : Valuation τ sig (Elt F)) :
    StableHlo.after hostOps3 V (Proc.devRef .tc main_v59)
      = Cert.Spec.aggr40 (V (Proc.devRef .tc main_v46)) (V (Proc.devRef .tc main_v3)) (V (Proc.devRef .tc main_v6))
          (V (Proc.devRef .tc main_v29)) := by
  after_results
  rfl

theorem V8_agg (c : Dev nD) : V8 m ρ c main_v59 = Cert.Spec.aggr40 (V7 m ρ c main_v46) (W3 m ρ c (Proc.devRef .tc main_v3))
    (W3 m ρ c (Proc.devRef .tc main_v6)) (W3 m ρ c (Proc.devRef .tc main_v29)) := by
  show StableHlo.after hostOps3 (W7 m ρ c) (Proc.devRef .tc main_v59) = _
  rw [agg_stretch, W7_src, W7_dst, W7_norm]

/-! ## The second bias as one row -/

/-- The second bias reaches the last stretch as launched. -/
theorem W7_b2 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by unwritten hostOps1
    _ = W3 m ρ c (Proc.devRef .tc main_arg5) := W4_of_ne m ρ c main_arg5 (by decide)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

/-- A vector of 40 reshaped to one row of 40 is the vector broadcast along a new leading axis of extent one: at
    `(u, i)` both read the vector at `i`. -/
theorem reshape_eq_biasRow40 (b : (⟨S40, .f32⟩ : BufTy).Contents (Elt F)) :
    shapeCast S1x40 b shapeCasts_S40_S1x40 = Cert.Spec.biasRow40 b := by
  funext j
  rw [ValueIdx.eq_ix2 j]
  refine (ValueIdx.shapeCast_a_1a_apply b _ (j 0) (j 1)).trans (Eq.symm ?_)
  unfold Cert.Spec.biasRow40
  refine broadcastInDim_apply _ _ b _ (ValueIdx.ix1 (j 1)) fun a => ?_
  match a with
  | ⟨0, _⟩ => rfl

/-- From any contents, the last stretch leaves in its reshape's result the bias vector as one row. -/
theorem bias_stretch (V : Valuation τ sig (Elt F)) :
    StableHlo.after hostOps3 V (Proc.devRef .tc main_v60) = Cert.Spec.biasRow40 (V (Proc.devRef .tc main_arg5)) := by
  after_results
  exact reshape_eq_biasRow40 _

theorem V8_bias (c : Dev nD) : V8 m ρ c main_v60 = Cert.Spec.biasRow40 (m ((c : Thread nD τ).loc main_arg5)) := by
  show StableHlo.after hostOps3 (W7 m ρ c) (Proc.devRef .tc main_v60) = _
  rw [bias_stretch, W7_b2]

end Cert.KernelIdeal.FoldTail

end
-- ==== Proof.KernelValue.lean ====
/-
  The kernel's result array as the network of its argument arrays.

  The kernel program runs four pallas_calls among stretches of host operations. Region 0 multiplies the features by
  the first weights, 5000 rows a grid point; the host gathers rows at the edges' sources, scales them by the edge
  weights and scatter-adds them at the edges' destinations; region 1 adds the first bias and clips at zero; region 2
  multiplies by the second weights; the host aggregates again; region 3 adds the second bias and takes the row-wise
  log-softmax. Each region's output array is a whole-array function of its two operand arrays (one lemma per region),
  each host stretch is the same host operations the reference runs (the lemmas about the buffer contents at the
  segment boundaries), and the contents of the result buffer at the last boundary follow by rewriting from the last
  region back to the launch.
-/
import proofs.«155438_j584115552925_1_alg».proof.Proof.Region0
import proofs.«155438_j584115552925_1_alg».proof.Proof.Region1
import proofs.«155438_j584115552925_1_alg».proof.Proof.Region2
import proofs.«155438_j584115552925_1_alg».proof.Proof.Region3
import proofs.«155438_j584115552925_1_alg».proof.Proof.FoldEntry
import proofs.«155438_j584115552925_1_alg».proof.Proof.FoldTail
import proofs.«155438_j584115552925_1_alg».proof.Proof.Spec
import Idealize.ShloMosaic.PureOps.Ideal

noncomputable section

open Idealize.ShloMosaic Idealize.ShloMosaic.TcCoe Idealize.SL.Sem

/-! ## The kernel's result array is the network of its arguments -/

namespace Cert.KernelIdeal.Result

open Cert.KernelIdeal Cert.KernelIdeal.Gen

variable (m : (ℓ : Loc nD τ sig) → Buf (Elt Ideal) ℓ) (ρ : Dev nD → PrngReg)

/-- The last boundary's contents at the result buffer: region 3's output array, which is the bias and row-wise
    log-softmax of the second aggregation, of region 2's product, of region 1's clipped bias sum, of the first
    aggregation, of region 0's product of the launch arrays — each region's array by its own lemma, each host stretch
    between them by the fold's. -/
theorem result_eq (c : Dev nD) :
    W9 m ρ c (Proc.devRef .tc main_v61)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h3 : W9 m ρ c (Proc.devRef .tc main_v61) = (dat3 (V8 m ρ) c).arrAt 2 cfg3.N := W9_arr m ρ c 2
  have h2 : V7 m ρ c main_v46 = (dat2 (V6 m ρ) c).arrAt 2 cfg2.N := W7_arr m ρ c 2
  have h1 : V6 m ρ c main_v45 = (dat1 (V5 m ρ) c).arrAt 2 cfg1.N := W6_arr m ρ c 2
  have h0 : V4 m ρ c main_v30 = (dat0 (V3 m ρ) c).arrAt 2 cfg0.N := W4_arr m ρ c 2
  rw [h3, Cert.KernelIdeal.Region3.arr_eq (V8 m ρ) c, Cert.KernelIdeal.FoldTail.V8_agg m ρ c, Cert.KernelIdeal.FoldTail.V8_bias m ρ c,
    h2, Cert.KernelIdeal.Region2.arr_eq (V6 m ρ) c, Cert.KernelIdeal.FoldTail.V6_w2 m ρ c,
    h1, Cert.KernelIdeal.Region1.arr_eq (V5 m ρ) c, Cert.KernelIdeal.FoldEntry.V5_agg m ρ c, Cert.KernelIdeal.FoldEntry.V5_bias m ρ c,
    h0, Cert.KernelIdeal.Region0.arr_eq (V3 m ρ) c, Cert.KernelIdeal.FoldEntry.V3_x m ρ c, Cert.KernelIdeal.FoldEntry.V3_w1 m ρ c,
    Cert.KernelIdeal.FoldEntry.W3_src m ρ c, Cert.KernelIdeal.FoldEntry.W3_dst m ρ c, Cert.KernelIdeal.FoldEntry.W3_norm m ρ c]
  rfl

end Cert.KernelIdeal.Result

end
-- ==== Proof.RefValue.lean ====
/-
  The reference program's run, read as the network. The program is a straight line of 138 host operations, cut into
  ten consecutive stretches. For any contents of the buffers a stretch starts from, each stretch leaves at its result
  buffers one function of the network applied to the contents of the buffers it reads (the products with the weights,
  the edge lists with their self loops, the inverse square roots of the degrees, the edge weights, the two
  aggregations, the bias with the clip at zero, the bias with the logarithm of the row-wise softmax), and leaves every
  buffer it does not write as it was. The fold over the whole line is the stretches' folds one after the other, so
  the result buffer ends at the network of the six argument arrays, and the argument buffers, which no operation
  writes, end as they began.
-/
import proofs.«155438_j584115552925_1_alg».proof.Proof.RefOps
import proofs.«155438_j584115552925_1_alg».proof.Proof.Spec
import Idealize.ShloMosaic.Lib.StableHlo.Run

noncomputable section

namespace Cert.ReferenceIdeal.RefValue

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The fold over two lines in a row. -/
theorem after_concat {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_concat l₁ l₂]

/-- A reference of a list, as a device buffer, is among the list's device buffers. -/
theorem single_sub_of_mem {τ : Topo} {sig : RefSig} {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Contents moved to a typed reference's buffer type and back are the contents. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-- The first stretch leaves the first layer's product of the features with the weights. -/
theorem A_v0 (V : Valuation τ sig (Elt F)) :
    after opsA V (Proc.devRef .tc main_v0) = Cert.Spec.dense1 (V (Proc.devRef .tc main_arg0)) (V (Proc.devRef .tc main_arg2)) := by
  simp only [opsA]
  after_results
  rfl

/-- It leaves the edges' sources: row 0 of the edge list, then the self loops. -/
theorem A_v4 (V : Valuation τ sig (Elt F)) :
    after opsA V (Proc.devRef .tc main_v4) = Cert.Spec.src (V (Proc.devRef .tc main_arg1)) := by
  simp only [opsA]
  after_results
  rfl

/-- And the edges' destinations: row 1 of the edge list, then the self loops. -/
theorem A_v7 (V : Valuation τ sig (Elt F)) :
    after opsA V (Proc.devRef .tc main_v7) = Cert.Spec.dst (V (Proc.devRef .tc main_arg1)) := by
  simp only [opsA]
  after_results
  rfl

/-- The second stretch: the inverse square roots of the degrees, from the destinations. -/
theorem B1_v15 (V : Valuation τ sig (Elt F)) :
    after opsB1 V (Proc.devRef .tc main_v15) = Cert.Spec.invSqrtDeg (V (Proc.devRef .tc main_v7)) := by
  simp only [opsB1]
  after_results
  rfl

/-- The third stretch: every edge's weight, the product of the two gathered inverse square roots. -/
theorem B2_v30 (V : Valuation τ sig (Elt F)) :
    after opsB2 V (Proc.devRef .tc main_v30) = mulf (Host.gather gather_S100000_S3300000x1_S3300000_n_0_n_n_0_1_1 (V (Proc.devRef .tc main_v15)) (broadcastInDim S3300000x1 ![0] bcast_S3300000_S3300000x1_0 (Cert.Spec.wrapIdx (V (Proc.devRef .tc main_v4))))) (Host.gather gather_S100000_S3300000x1_S3300000_n_0_n_n_0_1_1 (V (Proc.devRef .tc main_v15)) (broadcastInDim S3300000x1 ![0] bcast_S3300000_S3300000x1_0 (Cert.Spec.wrapIdx (V (Proc.devRef .tc main_v7))))) := by
  simp only [opsB2]
  after_results_simp
  rfl

/-- The fourth stretch: the aggregation over rows of 64. -/
theorem C_v43 (V : Valuation τ sig (Elt F)) :
    after opsC V (Proc.devRef .tc main_v43) = Cert.Spec.aggr64 (V (Proc.devRef .tc main_v0)) (V (Proc.devRef .tc main_v4)) (V (Proc.devRef .tc main_v7)) (V (Proc.devRef .tc main_v30)) := by
  simp only [opsC]
  after_results_simp
  rfl

/-- The fifth stretch: the bias row added, then clipped at zero. -/
theorem D_v47 (V : Valuation τ sig (Elt F)) :
    after opsD V (Proc.devRef .tc main_v47) = Cert.Spec.biasRelu1 (V (Proc.devRef .tc main_v43)) (Cert.Spec.biasRow64 (V (Proc.devRef .tc main_arg3))) := by
  simp only [opsD]
  after_results
  rfl

/-- The sixth stretch: the second layer's product. -/
theorem E_v48 (V : Valuation τ sig (Elt F)) :
    after opsE V (Proc.devRef .tc main_v48) = Cert.Spec.dense2 (V (Proc.devRef .tc main_v47)) (V (Proc.devRef .tc main_arg4)) := by
  simp only [opsE]
  after_results
  rfl

/-- It computes the edges' sources once more. -/
theorem E_v52 (V : Valuation τ sig (Elt F)) :
    after opsE V (Proc.devRef .tc main_v52) = Cert.Spec.src (V (Proc.devRef .tc main_arg1)) := by
  simp only [opsE]
  after_results
  rfl

/-- And the edges' destinations once more. -/
theorem E_v55 (V : Valuation τ sig (Elt F)) :
    after opsE V (Proc.devRef .tc main_v55) = Cert.Spec.dst (V (Proc.devRef .tc main_arg1)) := by
  simp only [opsE]
  after_results
  rfl

/-- The seventh stretch: the inverse square roots of the degrees, once more. -/
theorem G1_v63 (V : Valuation τ sig (Elt F)) :
    after opsG1 V (Proc.devRef .tc main_v63) = Cert.Spec.invSqrtDeg (V (Proc.devRef .tc main_v55)) := by
  simp only [opsG1]
  after_results
  rfl

/-- The eighth stretch: the edges' weights, once more. -/
theorem G2_v78 (V : Valuation τ sig (Elt F)) :
    after opsG2 V (Proc.devRef .tc main_v78) = mulf (Host.gather gather_S100000_S3300000x1_S3300000_n_0_n_n_0_1_1 (V (Proc.devRef .tc main_v63)) (broadcastInDim S3300000x1 ![0] bcast_S3300000_S3300000x1_0 (Cert.Spec.wrapIdx (V (Proc.devRef .tc main_v52))))) (Host.gather gather_S100000_S3300000x1_S3300000_n_0_n_n_0_1_1 (V (Proc.devRef .tc main_v63)) (broadcastInDim S3300000x1 ![0] bcast_S3300000_S3300000x1_0 (Cert.Spec.wrapIdx (V (Proc.devRef .tc main_v55))))) := by
  simp only [opsG2]
  after_results_simp
  rfl

/-- The ninth stretch: the aggregation over rows of 40. -/
theorem H_v91 (V : Valuation τ sig (Elt F)) :
    after opsH V (Proc.devRef .tc main_v91) = Cert.Spec.aggr40 (V (Proc.devRef .tc main_v48)) (V (Proc.devRef .tc main_v52)) (V (Proc.devRef .tc main_v55)) (V (Proc.devRef .tc main_v78)) := by
  simp only [opsH]
  after_results_simp
  rfl

/-- The last stretch: the bias row added, then the logarithm of the row-wise softmax. -/
theorem I_v95 (V : Valuation τ sig (Elt F)) :
    after opsI V (Proc.devRef .tc main_v95) = Cert.Spec.biasLogSoftmax1 (V (Proc.devRef .tc main_v91)) (Cert.Spec.biasRow40 (V (Proc.devRef .tc main_arg5))) := by
  simp only [opsI]
  after_results_simp
  simp only [ofBuf_toBuf]
  rfl

/-- The first stretch leaves every buffer it does not write as it was. -/
theorem keepA (V : Valuation τ sig (Elt F)) {r : Ref sig .tc}
    (hr : r ∉ [main_v0, main_v1, main_v2, main_v3, main_v4, main_v5, main_v6, main_v7]) :
    after opsA V (Proc.devRef .tc r) = V (Proc.devRef .tc r) :=
  after_of_writes_sub opsA V
    (by simp only [opsA, List.Forall, nullary_writes, unary_writes, binary_writes, ternary_writes, reshape_writes]
        repeat' apply And.intro
        all_goals exact single_sub_of_mem (by decide)) hr

/-- The second stretch leaves every buffer it does not write as it was. -/
theorem keepB1 (V : Valuation τ sig (Elt F)) {r : Ref sig .tc}
    (hr : r ∉ [main_cst, main_v8, main_cst_0, main_v9, main_v10, main_v11, main_cst_1, main_v12, main_v13, main_cst_2, main_call0_v0, main_call0_v1, main_v14, main_v15]) :
    after opsB1 V (Proc.devRef .tc r) = V (Proc.devRef .tc r) :=
  after_of_writes_sub opsB1 V
    (by simp only [opsB1, List.Forall, nullary_writes, unary_writes, binary_writes, ternary_writes, reshape_writes]
        repeat' apply And.intro
        all_goals exact single_sub_of_mem (by decide)) hr

/-- The third stretch leaves every buffer it does not write as it was. -/
theorem keepB2 (V : Valuation τ sig (Elt F)) {r : Ref sig .tc}
    (hr : r ∉ [main_c, main_v16, main_v17, main_c_3, main_v18, main_v19, main_v20, main_v21, main_v22, main_c_4, main_v23, main_v24, main_c_5, main_v25, main_v26, main_v27, main_v28, main_v29, main_v30]) :
    after opsB2 V (Proc.devRef .tc r) = V (Proc.devRef .tc r) :=
  after_of_writes_sub opsB2 V
    (by simp only [opsB2, List.Forall, nullary_writes, unary_writes, binary_writes, ternary_writes, reshape_writes]
        repeat' apply And.intro
        all_goals exact single_sub_of_mem (by decide)) hr

/-- The fourth stretch leaves every buffer it does not write as it was. -/
theorem keepC (V : Valuation τ sig (Elt F)) {r : Ref sig .tc}
    (hr : r ∉ [main_c_6, main_v31, main_v32, main_c_7, main_v33, main_v34, main_v35, main_v36, main_v37, main_v38, main_v39, main_v40, main_cst_8, main_v41, main_v42, main_v43]) :
    after opsC V (Proc.devRef .tc r) = V (Proc.devRef .tc r) :=
  after_of_writes_sub opsC V
    (by simp only [opsC, List.Forall, nullary_writes, unary_writes, binary_writes, ternary_writes, reshape_writes]
        repeat' apply And.intro
        all_goals exact single_sub_of_mem (by decide)) hr

/-- The fifth stretch leaves every buffer it does not write as it was. -/
theorem keepD (V : Valuation τ sig (Elt F)) {r : Ref sig .tc}
    (hr : r ∉ [main_v44, main_v45, main_v46, main_call1_cst, main_call1_v0, main_v47]) :
    after opsD V (Proc.devRef .tc r) = V (Proc.devRef .tc r) :=
  after_of_writes_sub opsD V
    (by simp only [opsD, List.Forall, nullary_writes, unary_writes, binary_writes, ternary_writes, reshape_writes]
        repeat' apply And.intro
        all_goals exact single_sub_of_mem (by decide)) hr

/-- The sixth stretch leaves every buffer it does not write as it was. -/
theorem keepE (V : Valuation τ sig (Elt F)) {r : Ref sig .tc}
    (hr : r ∉ [main_v48, main_v49, main_v50, main_v51, main_v52, main_v53, main_v54, main_v55]) :
    after opsE V (Proc.devRef .tc r) = V (Proc.devRef .tc r) :=
  after_of_writes_sub opsE V
    (by simp only [opsE, List.Forall, nullary_writes, unary_writes, binary_writes, ternary_writes, reshape_writes]
        repeat' apply And.intro
        all_goals exact single_sub_of_mem (by decide)) hr

/-- The seventh stretch leaves every buffer it does not write as it was. -/
theorem keepG1 (V : Valuation τ sig (Elt F)) {r : Ref sig .tc}
    (hr : r ∉ [main_cst_9, main_v56, main_cst_10, main_v57, main_v58, main_v59, main_cst_11, main_v60, main_v61, main_cst_12, main_call2_v0, main_call2_v1, main_v62, main_v63]) :
    after opsG1 V (Proc.devRef .tc r) = V (Proc.devRef .tc r) :=
  after_of_writes_sub opsG1 V
    (by simp only [opsG1, List.Forall, nullary_writes, unary_writes, binary_writes, ternary_writes, reshape_writes]
        repeat' apply And.intro
        all_goals exact single_sub_of_mem (by decide)) hr

/-- The eighth stretch leaves every buffer it does not write as it was. -/
theorem keepG2 (V : Valuation τ sig (Elt F)) {r : Ref sig .tc}
    (hr : r ∉ [main_c_13, main_v64, main_v65, main_c_14, main_v66, main_v67, main_v68, main_v69, main_v70, main_c_15, main_v71, main_v72, main_c_16, main_v73, main_v74, main_v75, main_v76, main_v77, main_v78]) :
    after opsG2 V (Proc.devRef .tc r) = V (Proc.devRef .tc r) :=
  after_of_writes_sub opsG2 V
    (by simp only [opsG2, List.Forall, nullary_writes, unary_writes, binary_writes, ternary_writes, reshape_writes]
        repeat' apply And.intro
        all_goals exact single_sub_of_mem (by decide)) hr

/-- The ninth stretch leaves every buffer it does not write as it was. -/
theorem keepH (V : Valuation τ sig (Elt F)) {r : Ref sig .tc}
    (hr : r ∉ [main_c_17, main_v79, main_v80, main_c_18, main_v81, main_v82, main_v83, main_v84, main_v85, main_v86, main_v87, main_v88, main_cst_19, main_v89, main_v90, main_v91]) :
    after opsH V (Proc.devRef .tc r) = V (Proc.devRef .tc r) :=
  after_of_writes_sub opsH V
    (by simp only [opsH, List.Forall, nullary_writes, unary_writes, binary_writes, ternary_writes, reshape_writes]
        repeat' apply And.intro
        all_goals exact single_sub_of_mem (by decide)) hr

/-- The last stretch leaves every buffer it does not write as it was. -/
theorem keepI (V : Valuation τ sig (Elt F)) {r : Ref sig .tc}
    (hr : r ∉ [main_v92, main_v93, main_v94, main_call3_cst, main_call3_v0, main_call3_cst_0, main_call3_v1, main_call3_v2, main_call3_v3, main_call3_v4, main_call3_v5, main_call3_v6, main_call3_cst_1, main_call3_v7, main_call3_v8, main_call3_v9, main_call3_v10, main_v95]) :
    after opsI V (Proc.devRef .tc r) = V (Proc.devRef .tc r) :=
  after_of_writes_sub opsI V
    (by simp only [opsI, List.Forall, nullary_writes, unary_writes, binary_writes, ternary_writes, reshape_writes]
        repeat' apply And.intro
        all_goals exact single_sub_of_mem (by decide)) hr

/-- The whole line at its result buffer: the network of the six argument arrays. Stretch by stretch from the last one
    inwards, each result read at the contents the stretches before it leave, every buffer a stretch does not write
    passed through it. -/
theorem value (V : Valuation τ sig (Elt F)) :
    after ops V (Proc.devRef .tc main_v95)
      = Cert.Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_eq]
  simp only [after_concat]
  rw [I_v95, H_v91, keepH (r := main_arg5) _ (by decide)]
  rw [G2_v78, keepG2 (r := main_v48) _ (by decide), keepG2 (r := main_v52) _ (by decide), keepG2 (r := main_v55) _ (by decide), keepG2 (r := main_arg5) _ (by decide)]
  rw [G1_v63, keepG1 (r := main_v48) _ (by decide), keepG1 (r := main_v52) _ (by decide), keepG1 (r := main_v55) _ (by decide), keepG1 (r := main_arg5) _ (by decide)]
  rw [E_v48, E_v52, E_v55, keepE (r := main_arg5) _ (by decide)]
  rw [D_v47, keepD (r := main_arg4) _ (by decide), keepD (r := main_arg1) _ (by decide), keepD (r := main_arg5) _ (by decide)]
  rw [C_v43, keepC (r := main_arg3) _ (by decide), keepC (r := main_arg4) _ (by decide), keepC (r := main_arg1) _ (by decide), keepC (r := main_arg5) _ (by decide)]
  rw [B2_v30, keepB2 (r := main_v0) _ (by decide), keepB2 (r := main_v4) _ (by decide), keepB2 (r := main_v7) _ (by decide), keepB2 (r := main_arg3) _ (by decide), keepB2 (r := main_arg4) _ (by decide), keepB2 (r := main_arg1) _ (by decide), keepB2 (r := main_arg5) _ (by decide)]
  rw [B1_v15, keepB1 (r := main_v0) _ (by decide), keepB1 (r := main_v4) _ (by decide), keepB1 (r := main_v7) _ (by decide), keepB1 (r := main_arg3) _ (by decide), keepB1 (r := main_arg4) _ (by decide), keepB1 (r := main_arg1) _ (by decide), keepB1 (r := main_arg5) _ (by decide)]
  rw [A_v0, A_v4, A_v7, keepA (r := main_arg3) _ (by decide), keepA (r := main_arg4) _ (by decide), keepA (r := main_arg1) _ (by decide), keepA (r := main_arg5) _ (by decide)]
  simp only [Cert.Spec.out, Cert.Spec.biasLogSoftmax1, Cert.Spec.logits, Cert.Spec.hidden, Cert.Spec.agg40, Cert.Spec.agg64,
    Cert.Spec.norm, Cert.Spec.edgeNorm]

/-- The six argument buffers are written by no operation of the line: each keeps its contents through every stretch. -/
theorem arg_kept (V : Valuation τ sig (Elt F)) (r : Ref sig .tc)
    (hr : r ∈ [main_arg0, main_arg1, main_arg2, main_arg3, main_arg4, main_arg5]) :
    after ops V (Proc.devRef .tc r) = V (Proc.devRef .tc r) := by
  rw [ops_eq]
  simp only [after_concat]
  simp only [List.mem_cons, List.not_mem_nil, or_false] at hr
  rcases hr with rfl | rfl | rfl | rfl | rfl | rfl <;>
    rw [keepI _ (by decide), keepH _ (by decide), keepG2 _ (by decide), keepG1 _ (by decide), keepE _ (by decide), keepD _ (by decide), keepC _ (by decide), keepB2 _ (by decide), keepB1 _ (by decide), keepA _ (by decide)]

/-- Every weakly fair execution of the reference program terminates with the result buffer at the network of the six
    argument arrays' launch contents, and the six argument buffers as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)
      ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  (θ_run defs _ _).mono
    (fun _ h c => ⟨(h c main_v95).trans (value _), (h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide))⟩)
    (run_seq scopedRefs_eq scopedSems_eq defs main (fun _ => ops) main_eq (fun _ => ops_sub) m ρ)

end Cert.ReferenceIdeal.RefValue

end
-- ==== Proof.lean ====
/-
  The certificate of a two-layer graph convolution: the kernel program (four pallas_calls — two matrix products, a
  bias with clipping at zero, a bias with the row-wise log-softmax — among host stretches that build the edge arrays,
  the degrees and the edge weights and run each layer's gather, scaling and scatter-add) against the plain reference.

  Over the extended reals both compute one function of the six argument arrays, `Cert.Spec.out`: a change of float
  format is the identity, a matrix product block by block into a zero accumulator is the host's product row by row
  (the same sum over k in the same order), the vector unit's row maximum and row sum are the host's, and the gathers
  and scatter-adds are the same host operations on the same index arrays in both programs. No law that needs finite
  values is used, so the precondition is never opened. The three frames: the two kernel programs' are the generated
  ones, the reference's is its run with the result dropped; the idealization rewrote nothing, so `preserves` is trivial.
-/
import proofs.«155438_j584115552925_1_alg».proof.Defs
import proofs.«155438_j584115552925_1_alg».proof.Proof.Gen.Kernel
import proofs.«155438_j584115552925_1_alg».proof.Proof.Gen.Kernel.Skeleton
import proofs.«155438_j584115552925_1_alg».proof.Proof.Gen.Kernel.Launch
import proofs.«155438_j584115552925_1_alg».proof.Proof.Gen.Kernel.Points
import proofs.«155438_j584115552925_1_alg».proof.Proof.Gen.Kernel.Frame
import proofs.«155438_j584115552925_1_alg».proof.Proof.Gen.KernelIdeal
import proofs.«155438_j584115552925_1_alg».proof.Proof.Gen.KernelIdeal.Skeleton
import proofs.«155438_j584115552925_1_alg».proof.Proof.Gen.KernelIdeal.Launch
import proofs.«155438_j584115552925_1_alg».proof.Proof.Gen.KernelIdeal.Points
import proofs.«155438_j584115552925_1_alg».proof.Proof.Gen.KernelIdeal.Frame
import proofs.«155438_j584115552925_1_alg».proof.Proof.Gen.ReferenceIdeal
import proofs.«155438_j584115552925_1_alg».proof.Proof.Gen.Pre_finite_inputs
import proofs.«155438_j584115552925_1_alg».proof.Proof.KernelRun
import proofs.«155438_j584115552925_1_alg».proof.Proof.KernelValue
import proofs.«155438_j584115552925_1_alg».proof.Proof.RefValue
import Idealize.ShloMosaic.Adequacy
import Idealize.ShloMosaic.Init

noncomputable section

/-! ## The claims -/

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run with its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run (F := Ideal) m ρ)

/-- Both runs end with the network of the argument arrays in their result buffer: the kernel's by its regions and the
    host stretches between them, the reference's by its own operations; the arguments agree, so the results do. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_eq m ρ c), (h c).2⟩)
      (Cert.KernelIdeal.GenR.run_result (F := Ideal) m ρ)
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
